-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x16 : Shape := ⟨2, ![1048576, 16]⟩
abbrev S76x64 : Shape := ⟨2, ![76, 64]⟩
abbrev S64 : Shape := ⟨1, ![64]⟩
abbrev S64x64 : Shape := ⟨2, ![64, 64]⟩
abbrev S64x76 : Shape := ⟨2, ![64, 76]⟩
abbrev S76 : Shape := ⟨1, ![76]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576x16 : S_.BroadcastsInDim S1048576x16 (![] : Fin 0 → Fin S1048576x16.rank)
  reducesTo_S1048576x16_S_d0_1 : S1048576x16.ReducesTo [0, 1] S_
  bcast_S_S76x64 : S_.BroadcastsInDim S76x64 (![] : Fin 0 → Fin S76x64.rank)
  reducesTo_S76x64_S_d0_1 : S76x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x76 : S_.BroadcastsInDim S64x76 (![] : Fin 0 → Fin S64x76.rank)
  reducesTo_S64x76_S_d0_1 : S64x76.ReducesTo [0, 1] S_
  bcast_S_S76 : S_.BroadcastsInDim S76 (![] : Fin 0 → Fin S76.rank)
  reducesTo_S76_S_d0 : S76.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part6 {F : FTy → Type} [FloatOps F] (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  main_v103

def fn_part5 {F : FTy → Type} [FloatOps F] (main_arg18 : FVec F S16 .f32) (main_arg19 : FVec F S16x16 .f32) (main_arg20 : FVec F S16 .f32) (main_v83 : IVec S_ 1) (main_v84 : FVec F S16x16 .f32) (main_cst_32 : FVec F S_ .f32) : IVec S_ 1 :=
  let main_v85 : FVec F S16x16 .f32 := broadcastInDim S16x16 ![] bcast_S_S16x16 main_cst_32
  let main_v86 : IVec S16x16 1 := cmpf .olt main_v84 main_v85
  let main_c_33 : IVec S_ 1 := constantI S_ 1 1#1
  let main_v87 : IVec S_ 1 := (fun x v => Host.reduce IntOp.andi x v reducesTo_S16x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x16 .f32 := Host.absf main_arg19
  let main_cst_36 : FVec F S_ .f32 := constant S_ .f32 0x7F800000#32
  let main_v95 : FVec F S16x16 .f32 := broadcastInDim S16x16 ![] bcast_S_S16x16 main_cst_36
  let main_v96 : IVec S16x16 1 := cmpf .olt main_v94 main_v95
  let main_c_37 : IVec S_ 1 := constantI S_ 1 1#1
  let main_v97 : IVec S_ 1 := (fun x v => Host.reduce IntOp.andi x v reducesTo_S16x16_S_d0_1 h_S_) main_v96 main_c_37
  let main_v98 : IVec S_ 1 := andi main_v93 main_v97
  let main_v99 : FVec F S16 .f32 := Host.absf main_arg20
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_v98 main_v101 main_c_39

def fn_part4 {F : FTy → Type} [FloatOps F] (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x16 .f32 := Host.absf main_arg15
  let main_cst_28 : FVec F S_ .f32 := constant S_ .f32 0x7F800000#32
  let main_v75 : FVec F S32x16 .f32 := broadcastInDim S32x16 ![] bcast_S_S32x16 main_cst_28
  let main_v76 : IVec S32x16 1 := cmpf .olt main_v74 main_v75
  let main_c_29 : IVec S_ 1 := constantI S_ 1 1#1
  let main_v77 : IVec S_ 1 := (fun x v => Host.reduce IntOp.andi x v reducesTo_S32x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x16 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg13
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S64x76 .f32) (main_arg8 : FVec F S76 .f32) (main_arg9 : FVec F S76x64 .f32) (main_arg10 : FVec F S64 .f32) (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v33 : IVec S_ 1) : IVec S_ 1 :=
  let main_v34 : FVec F S64x76 .f32 := Host.absf main_arg7
  let main_cst_12 : FVec F S_ .f32 := constant S_ .f32 0x7F800000#32
  let main_v35 : FVec F S64x76 .f32 := broadcastInDim S64x76 ![] bcast_S_S64x76 main_cst_12
  let main_v36 : IVec S64x76 1 := cmpf .olt main_v34 main_v35
  let main_c_13 : IVec S_ 1 := constantI S_ 1 1#1
  let main_v37 : IVec S_ 1 := (fun x v => Host.reduce IntOp.andi x v reducesTo_S64x76_S_d0_1 h_S_) main_v36 main_c_13
  let main_v38 : IVec S_ 1 := andi main_v33 main_v37
  let main_v39 : FVec F S76 .f32 := Host.absf main_arg8
  let main_cst_14 : FVec F S_ .f32 := constant S_ .f32 0x7F800000#32
  let main_v40 : FVec F S76 .f32 := broadcastInDim S76 ![] bcast_S_S76 main_cst_14
  let main_v41 : IVec S76 1 := cmpf .olt main_v39 main_v40
  let main_c_15 : IVec S_ 1 := constantI S_ 1 1#1
  let main_v42 : IVec S_ 1 := (fun x v => Host.reduce IntOp.andi x v reducesTo_S76_S_d0 h_S_) main_v41 main_c_15
  let main_v43 : IVec S_ 1 := andi main_v38 main_v42
  let main_v44 : FVec F S76x64 .f32 := Host.absf main_arg9
  let main_cst_16 : FVec F S_ .f32 := constant S_ .f32 0x7F800000#32
  let main_v45 : FVec F S76x64 .f32 := broadcastInDim S76x64 ![] bcast_S_S76x64 main_cst_16
  let main_v46 : IVec S76x64 1 := cmpf .olt main_v44 main_v45
  let main_c_17 : IVec S_ 1 := constantI S_ 1 1#1
  let main_v47 : IVec S_ 1 := (fun x v => Host.reduce IntOp.andi x v reducesTo_S76x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S64 .f32) (main_arg5 : FVec F S64x64 .f32) (main_arg6 : FVec F S64 .f32) (main_arg7 : FVec F S64x76 .f32) (main_arg8 : FVec F S76 .f32) (main_arg9 : FVec F S76x64 .f32) (main_arg10 : FVec F S64 .f32) (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v13 : IVec S_ 1) (main_v16 : IVec S76x64 1) : IVec S_ 1 :=
  let main_c_5 : IVec S_ 1 := constantI S_ 1 1#1
  let main_v17 : IVec S_ 1 := (fun x v => Host.reduce IntOp.andi x v reducesTo_S76x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1048576x64 .f32) (main_arg1 : FVec F S1048576x16 .f32) (main_arg2 : FVec F S1048576x16 .f32) (main_arg3 : FVec F S76x64 .f32) (main_arg4 : FVec F S64 .f32) (main_arg5 : FVec F S64x64 .f32) (main_arg6 : FVec F S64 .f32) (main_arg7 : FVec F S64x76 .f32) (main_arg8 : FVec F S76 .f32) (main_arg9 : FVec F S76x64 .f32) (main_arg10 : FVec F S64 .f32) (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x16 .f32 := Host.absf main_arg1
  let main_cst_0 : FVec F S_ .f32 := constant S_ .f32 0x7F800000#32
  let main_v5 : FVec F S1048576x16 .f32 := broadcastInDim S1048576x16 ![] bcast_S_S1048576x16 main_cst_0
  let main_v6 : IVec S1048576x16 1 := cmpf .olt main_v4 main_v5
  let main_c_1 : IVec S_ 1 := constantI S_ 1 1#1
  let main_v7 : IVec S_ 1 := (fun x v => Host.reduce IntOp.andi x v reducesTo_S1048576x16_S_d0_1 h_S_) main_v6 main_c_1
  let main_v8 : IVec S_ 1 := andi main_v3 main_v7
  let main_v9 : FVec F S1048576x16 .f32 := Host.absf main_arg2
  let main_cst_2 : FVec F S_ .f32 := constant S_ .f32 0x7F800000#32
  let main_v10 : FVec F S1048576x16 .f32 := broadcastInDim S1048576x16 ![] bcast_S_S1048576x16 main_cst_2
  let main_v11 : IVec S1048576x16 1 := cmpf .olt main_v9 main_v10
  let main_c_3 : IVec S_ 1 := constantI S_ 1 1#1
  let main_v12 : IVec S_ 1 := (fun x v => Host.reduce IntOp.andi x v reducesTo_S1048576x16_S_d0_1 h_S_) main_v11 main_c_3
  let main_v13 : IVec S_ 1 := andi main_v8 main_v12
  let main_v14 : FVec F S76x64 .f32 := Host.absf main_arg3
  let main_cst_4 : FVec F S_ .f32 := constant S_ .f32 0x7F800000#32
  let main_v15 : FVec F S76x64 .f32 := broadcastInDim S76x64 ![] bcast_S_S76x64 main_cst_4
  let main_v16 : IVec S76x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1048576x64 : Shape := ⟨2, ![1048576, 64]⟩
abbrev S1048576x16 : Shape := ⟨2, ![1048576, 16]⟩
abbrev S76x64 : Shape := ⟨2, ![76, 64]⟩
abbrev S64 : Shape := ⟨1, ![64]⟩
abbrev S64x64 : Shape := ⟨2, ![64, 64]⟩
abbrev S64x76 : Shape := ⟨2, ![64, 76]⟩
abbrev S76 : Shape := ⟨1, ![76]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x64 : Shape := ⟨2, ![1, 64]⟩
abbrev S1x76 : Shape := ⟨2, ![1, 76]⟩
abbrev S1x32 : Shape := ⟨2, ![1, 32]⟩
abbrev S1x16 : Shape := ⟨2, ![1, 16]⟩
abbrev S2048x64 : Shape := ⟨2, ![2048, 64]⟩
abbrev S2048x16 : Shape := ⟨2, ![2048, 16]⟩
abbrev S2048x60 : Shape := ⟨2, ![2048, 60]⟩
abbrev S60x64 : Shape := ⟨2, ![60, 64]⟩
abbrev S16x64 : Shape := ⟨2, ![16, 64]⟩
abbrev S2048x76 : Shape := ⟨2, ![2048, 76]⟩
abbrev S2048x32 : Shape := ⟨2, ![2048, 32]⟩

abbrev nBuf : Space → Nat
  | .hbm => 33
  | .vmem => 30
  | .smem => 0
  | _ => 0

abbrev bufTy : (tb : Table) → Fin (tcTables nBuf tb) → BufTy
  | .hbm, ⟨0, _⟩ => ⟨S1048576x64, .f32⟩
  | .hbm, ⟨1, _⟩ => ⟨S1048576x16, .f32⟩
  | .hbm, ⟨2, _⟩ => ⟨S1048576x16, .f32⟩
  | .hbm, ⟨3, _⟩ => ⟨S76x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x76, .f32⟩
  | .hbm, ⟨8, _⟩ => ⟨S76, .f32⟩
  | .hbm, ⟨9, _⟩ => ⟨S76x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x16, .f32⟩
  | .hbm, ⟨18, _⟩ => ⟨S16, .f32⟩
  | .hbm, ⟨19, _⟩ => ⟨S16x16, .f32⟩
  | .hbm, ⟨20, _⟩ => ⟨S16, .f32⟩
  | .hbm, ⟨21, _⟩ => ⟨S1x64, .f32⟩
  | .hbm, ⟨22, _⟩ => ⟨S1x64, .f32⟩
  | .hbm, ⟨23, _⟩ => ⟨S1x76, .f32⟩
  | .hbm, ⟨24, _⟩ => ⟨S1x64, .f32⟩
  | .hbm, ⟨25, _⟩ => ⟨S1x64, .f32⟩
  | .hbm, ⟨26, _⟩ => ⟨S1x32, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S1048576x16, .f32⟩
  | .hbm, ⟨31, _⟩ => ⟨S1048576x16, .f32⟩
  | .hbm, ⟨32, _⟩ => ⟨S1048576x16, .f32⟩
  | .local _ .vmem, ⟨0, _⟩ => ⟨S2048x64, .f32⟩
  | .local _ .vmem, ⟨1, _⟩ => ⟨S2048x64, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S76x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x76, .f32⟩
  | .local _ .vmem, ⟨11, _⟩ => ⟨S1x76, .f32⟩
  | .local _ .vmem, ⟨12, _⟩ => ⟨S76x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S32x16, .f32⟩
  | .local _ .vmem, ⟨19, _⟩ => ⟨S1x16, .f32⟩
  | .local _ .vmem, ⟨20, _⟩ => ⟨S16x16, .f32⟩
  | .local _ .vmem, ⟨21, _⟩ => ⟨S1x16, .f32⟩
  | .local _ .vmem, ⟨22, _⟩ => ⟨S16x16, .f32⟩
  | .local _ .vmem, ⟨23, _⟩ => ⟨S1x16, .f32⟩
  | .local _ .vmem, ⟨24, _⟩ => ⟨S2048x16, .f32⟩
  | .local _ .vmem, ⟨25, _⟩ => ⟨S2048x16, .f32⟩
  | .local _ .vmem, ⟨26, _⟩ => ⟨S2048x16, .f32⟩
  | .local _ .vmem, ⟨27, _⟩ => ⟨S2048x16, .f32⟩
  | .local _ .vmem, ⟨28, _⟩ => ⟨S2048x16, .f32⟩
  | .local _ .vmem, ⟨29, _⟩ => ⟨S2048x16, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev main_v9_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S76x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x76 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x76 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S76x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x16 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x16 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2048x16 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  shapeCasts_S64_S1x64 : S64.ShapeCasts S1x64
  shapeCasts_S76_S1x76 : S76.ShapeCasts S1x76
  shapeCasts_S32_S1x32 : S32.ShapeCasts S1x32
  shapeCasts_S16_S1x16 : S16.ShapeCasts S1x16
  inb_S2048x64_S2048x64_0_0 : ∀ a, (![0, 0] : Fin 2 → Nat) a + S2048x64.size a ≤ S2048x64.size a
  h_S2048x64 : 0 < S2048x64.numel
  slices_S2048x64_o0_4_S2048x60 : S2048x64.Slices ![0, 4] S2048x60
  inb_S2048x16_S2048x16_0_0 : ∀ a, (![0, 0] : Fin 2 → Nat) a + S2048x16.size a ≤ S2048x16.size a
  h_S2048x16 : 0 < S2048x16.numel
  inb_S76x64_S76x64_0_0 : ∀ a, (![0, 0] : Fin 2 → Nat) a + S76x64.size a ≤ S76x64.size a
  h_S76x64 : 0 < S76x64.numel
  slices_S76x64_o0_0_S60x64 : S76x64.Slices ![0, 0] S60x64
  bitsLt_bf16_f32 : FTy.bits .bf16 < FTy.bits .f32
  slices_S76x64_o60_0_S16x64 : S76x64.Slices ![60, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S64x76_S64x76_0_0 : ∀ a, (![0, 0] : Fin 2 → Nat) a + S64x76.size a ≤ S64x76.size a
  h_S64x76 : 0 < S64x76.numel
  inb_S1x76_S1x76_0_0 : ∀ a, (![0, 0] : Fin 2 → Nat) a + S1x76.size a ≤ S1x76.size a
  h_S1x76 : 0 < S1x76.numel
  shapeCasts_S1x76_S1x76 : S1x76.ShapeCasts S1x76
  broadcasts_S1x76_S2048x76 : S1x76.Broadcasts S2048x76
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x16_S16x16_0_0 : ∀ a, (![0, 0] : Fin 2 → Nat) a + S16x16.size a ≤ S16x16.size a
  h_S16x16 : 0 < S16x16.numel
  dot_S2048x60_S60x64_S2048x64_1_0_0_1_n_n_wf : DotDims.WF S2048x60 S60x64 S2048x64 [1] [0] [0] [1] [] []
  dot_S2048x16_S16x64_S2048x64_1_0_0_1_n_n_wf : DotDims.WF S2048x16 S16x64 S2048x64 [1] [0] [0] [1] [] []
  dot_S2048x64_S64x64_S2048x64_1_0_0_1_n_n_wf : DotDims.WF S2048x64 S64x64 S2048x64 [1] [0] [0] [1] [] []
  dot_S2048x64_S64x76_S2048x76_1_0_0_1_n_n_wf : DotDims.WF S2048x64 S64x76 S2048x76 [1] [0] [0] [1] [] []
  dot_S2048x76_S76x64_S2048x64_1_0_0_1_n_n_wf : DotDims.WF S2048x76 S76x64 S2048x64 [1] [0] [0] [1] [] []
  dot_S2048x64_S64x32_S2048x32_1_0_0_1_n_n_wf : DotDims.WF S2048x64 S64x32 S2048x32 [1] [0] [0] [1] [] []
  dot_S2048x32_S32x16_S2048x16_1_0_0_1_n_n_wf : DotDims.WF S2048x32 S32x16 S2048x16 [1] [0] [0] [1] [] []
  dot_S2048x16_S16x16_S2048x16_1_0_0_1_n_n_wf : DotDims.WF S2048x16 S16x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S1048576x64.size a
  hwx0_0 : ∀ i : grid0.Coords, EltTy.bits .f32 = 32 ∨ (Rect.block (s := S1048576x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S1048576x16.size a
  hwx0_1 : ∀ i : grid0.Coords, EltTy.bits .f32 = 32 ∨ (Rect.block (s := S1048576x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S1048576x16.size a
  hwx0_2 : ∀ i : grid0.Coords, EltTy.bits .f32 = 32 ∨ (Rect.block (s := S1048576x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S76x64.size a ≤ S76x64.size a
  hwx0_3 : ∀ i : grid0.Coords, EltTy.bits .f32 = 32 ∨ (Rect.block (s := S76x64) S76x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x76.size a ≤ S64x76.size a
  hwx0_7 : ∀ i : grid0.Coords, EltTy.bits .f32 = 32 ∨ (Rect.block (s := S64x76) S64x76.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x76.size a ≤ S1x76.size a
  hwx0_8 : ∀ i : grid0.Coords, EltTy.bits .f32 = 32 ∨ (Rect.block (s := S1x76) S1x76.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S76x64.size a ≤ S76x64.size a
  hwx0_9 : ∀ i : grid0.Coords, EltTy.bits .f32 = 32 ∨ (Rect.block (s := S76x64) S76x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x32.size a ≤ S64x32.size a
  hwx0_13 : ∀ i : grid0.Coords, EltTy.bits .f32 = 32 ∨ (Rect.block (s := S64x32) S64x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x16.size a ≤ S32x16.size a
  hwx0_15 : ∀ i : grid0.Coords, EltTy.bits .f32 = 32 ∨ (Rect.block (s := S32x16) S32x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x16.size a ≤ S1x16.size a
  hwx0_16 : ∀ i : grid0.Coords, EltTy.bits .f32 = 32 ∨ (Rect.block (s := S1x16) S1x16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x16.size a ≤ S16x16.size a
  hwx0_17 : ∀ i : grid0.Coords, EltTy.bits .f32 = 32 ∨ (Rect.block (s := S16x16) S16x16.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x16.size a ≤ S1x16.size a
  hwx0_18 : ∀ i : grid0.Coords, EltTy.bits .f32 = 32 ∨ (Rect.block (s := S1x16) S1x16.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16x16.size a ≤ S16x16.size a
  hwx0_19 : ∀ i : grid0.Coords, EltTy.bits .f32 = 32 ∨ (Rect.block (s := S16x16) S16x16.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x16.size a ≤ S1x16.size a
  hwx0_20 : ∀ i : grid0.Coords, EltTy.bits .f32 = 32 ∨ (Rect.block (s := S1x16) S1x16.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x16.size a ≤ S1048576x16.size a
  hwx0_21 : ∀ i : grid0.Coords, EltTy.bits .f32 = 32 ∨ (Rect.block (s := S1048576x16) S2048x16.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x16.size a ≤ S1048576x16.size a
  hwx0_22 : ∀ i : grid0.Coords, EltTy.bits .f32 = 32 ∨ (Rect.block (s := S1048576x16) S2048x16.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x16.size a ≤ S1048576x16.size a
  hwx0_23 : ∀ i : grid0.Coords, EltTy.bits .f32 = 32 ∨ (Rect.block (s := S1048576x16) S2048x16.size (cc0_transform_23 i) (hinb0_23 i)).WholeWords (EltTy.packing .f32)

variable [Facts₀]

def dot_S2048x60_S60x64_S2048x64_1_0_0_1_n_n : DotDims S2048x60 S60x64 S2048x64 where
  lhsContracting := [1]
  rhsContracting := [0]
  lhsNonContracting := [0]
  rhsNonContracting := [1]
  lhsBatch := []
  rhsBatch := []
  wf := dot_S2048x60_S60x64_S2048x64_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x76_S2048x76_1_0_0_1_n_n : DotDims S2048x64 S64x76 S2048x76 where
  lhsContracting := [1]
  rhsContracting := [0]
  lhsNonContracting := [0]
  rhsNonContracting := [1]
  lhsBatch := []
  rhsBatch := []
  wf := dot_S2048x64_S64x76_S2048x76_1_0_0_1_n_n_wf
def dot_S2048x76_S76x64_S2048x64_1_0_0_1_n_n : DotDims S2048x76 S76x64 S2048x64 where
  lhsContracting := [1]
  rhsContracting := [0]
  lhsNonContracting := [0]
  rhsNonContracting := [1]
  lhsBatch := []
  rhsBatch := []
  wf := dot_S2048x76_S76x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S76x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x76.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x76.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S76x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S32x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6) S1x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S16x16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v7) S1x16.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S16x16.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v8) S1x16.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v9_0) S2048x16.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v9_1) S2048x16.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v9_2) S2048x16.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x16 : Shape := ⟨2, ![1048576, 16]⟩
abbrev S76x64 : Shape := ⟨2, ![76, 64]⟩
abbrev S64 : Shape := ⟨1, ![64]⟩
abbrev S64x64 : Shape := ⟨2, ![64, 64]⟩
abbrev S64x76 : Shape := ⟨2, ![64, 76]⟩
abbrev S76 : Shape := ⟨1, ![76]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S60 : Shape := ⟨1, ![60]⟩
abbrev S_ : Shape := ⟨0, ![]⟩
abbrev S60x1 : Shape := ⟨2, ![60, 1]⟩
abbrev S1048576x60 : Shape := ⟨2, ![1048576, 60]⟩
abbrev S1048576x76 : Shape := ⟨2, ![1048576, 76]⟩
abbrev S1x64 : Shape := ⟨2, ![1, 64]⟩
abbrev S1x76 : Shape := ⟨2, ![1, 76]⟩
abbrev S1048576x32 : Shape := ⟨2, ![1048576, 32]⟩
abbrev S1x32 : Shape := ⟨2, ![1, 32]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x16, .f32⟩
  | .hbm, ⟨2, _⟩ => ⟨S1048576x16, .f32⟩
  | .hbm, ⟨3, _⟩ => ⟨S76x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x76, .f32⟩
  | .hbm, ⟨8, _⟩ => ⟨S76, .f32⟩
  | .hbm, ⟨9, _⟩ => ⟨S76x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x16, .f32⟩
  | .hbm, ⟨18, _⟩ => ⟨S16, .f32⟩
  | .hbm, ⟨19, _⟩ => ⟨S16x16, .f32⟩
  | .hbm, ⟨20, _⟩ => ⟨S16, .f32⟩
  | .hbm, ⟨21, _⟩ => ⟨S60, .i32⟩
  | .hbm, ⟨22, _⟩ => ⟨S60, .i1⟩
  | .hbm, ⟨23, _⟩ => ⟨S_, .i32⟩
  | .hbm, ⟨24, _⟩ => ⟨S60, .i32⟩
  | .hbm, ⟨25, _⟩ => ⟨S60, .i32⟩
  | .hbm, ⟨26, _⟩ => ⟨S60, .i32⟩
  | .hbm, ⟨27, _⟩ => ⟨S60x1, .i32⟩
  | .hbm, ⟨28, _⟩ => ⟨S1048576x60, .f32⟩
  | .hbm, ⟨29, _⟩ => ⟨S1048576x76, .f32⟩
  | .hbm, ⟨30, _⟩ => ⟨S1048576x64, .f32⟩
  | .hbm, ⟨31, _⟩ => ⟨S1x64, .f32⟩
  | .hbm, ⟨32, _⟩ => ⟨S1048576x64, .f32⟩
  | .hbm, ⟨33, _⟩ => ⟨S1048576x64, .f32⟩
  | .hbm, ⟨34, _⟩ => ⟨S1048576x64, .f32⟩
  | .hbm, ⟨35, _⟩ => ⟨S1048576x64, .f32⟩
  | .hbm, ⟨36, _⟩ => ⟨S1x64, .f32⟩
  | .hbm, ⟨37, _⟩ => ⟨S1048576x64, .f32⟩
  | .hbm, ⟨38, _⟩ => ⟨S1048576x64, .f32⟩
  | .hbm, ⟨39, _⟩ => ⟨S1048576x64, .f32⟩
  | .hbm, ⟨40, _⟩ => ⟨S1048576x76, .f32⟩
  | .hbm, ⟨41, _⟩ => ⟨S1x76, .f32⟩
  | .hbm, ⟨42, _⟩ => ⟨S1048576x76, .f32⟩
  | .hbm, ⟨43, _⟩ => ⟨S1048576x76, .f32⟩
  | .hbm, ⟨44, _⟩ => ⟨S1048576x64, .f32⟩
  | .hbm, ⟨45, _⟩ => ⟨S1x64, .f32⟩
  | .hbm, ⟨46, _⟩ => ⟨S1048576x64, .f32⟩
  | .hbm, ⟨47, _⟩ => ⟨S1048576x64, .f32⟩
  | .hbm, ⟨48, _⟩ => ⟨S_, .f32⟩
  | .hbm, ⟨49, _⟩ => ⟨S1048576x64, .f32⟩
  | .hbm, ⟨50, _⟩ => ⟨S1048576x64, .f32⟩
  | .hbm, ⟨51, _⟩ => ⟨S1048576x64, .f32⟩
  | .hbm, ⟨52, _⟩ => ⟨S1x64, .f32⟩
  | .hbm, ⟨53, _⟩ => ⟨S1048576x64, .f32⟩
  | .hbm, ⟨54, _⟩ => ⟨S1048576x64, .f32⟩
  | .hbm, ⟨55, _⟩ => ⟨S_, .f32⟩
  | .hbm, ⟨56, _⟩ => ⟨S1048576x64, .f32⟩
  | .hbm, ⟨57, _⟩ => ⟨S1048576x64, .f32⟩
  | .hbm, ⟨58, _⟩ => ⟨S1048576x32, .f32⟩
  | .hbm, ⟨59, _⟩ => ⟨S1x32, .f32⟩
  | .hbm, ⟨60, _⟩ => ⟨S1048576x32, .f32⟩
  | .hbm, ⟨61, _⟩ => ⟨S1048576x32, .f32⟩
  | .hbm, ⟨62, _⟩ => ⟨S_, .f32⟩
  | .hbm, ⟨63, _⟩ => ⟨S1048576x32, .f32⟩
  | .hbm, ⟨64, _⟩ => ⟨S1048576x32, .f32⟩
  | .hbm, ⟨65, _⟩ => ⟨S1048576x16, .f32⟩
  | .hbm, ⟨66, _⟩ => ⟨S1x16, .f32⟩
  | .hbm, ⟨67, _⟩ => ⟨S1048576x16, .f32⟩
  | .hbm, ⟨68, _⟩ => ⟨S1048576x16, .f32⟩
  | .hbm, ⟨69, _⟩ => ⟨S1048576x16, .f32⟩
  | .hbm, ⟨70, _⟩ => ⟨S1x16, .f32⟩
  | .hbm, ⟨71, _⟩ => ⟨S1048576x16, .f32⟩
  | .hbm, ⟨72, _⟩ => ⟨S1048576x16, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1048576x16, .f32⟩
  | .hbm, ⟨77, _⟩ => ⟨S1048576x16, .f32⟩
  | .hbm, ⟨78, _⟩ => ⟨S_, .f32⟩
  | .hbm, ⟨79, _⟩ => ⟨S1048576x16, .f32⟩
  | .hbm, ⟨80, _⟩ => ⟨S1048576x16, .f32⟩
  | .hbm, ⟨81, _⟩ => ⟨S1048576x16, .f32⟩
  | .hbm, ⟨82, _⟩ => ⟨S1048576x16, .f32⟩
  | .hbm, ⟨83, _⟩ => ⟨S1x16, .f32⟩
  | .hbm, ⟨84, _⟩ => ⟨S1048576x16, .f32⟩
  | .hbm, ⟨85, _⟩ => ⟨S1048576x16, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1048576x16, .f32⟩
  | .hbm, ⟨90, _⟩ => ⟨S1048576x16, .f32⟩
  | .hbm, ⟨91, _⟩ => ⟨S_, .f32⟩
  | .hbm, ⟨92, _⟩ => ⟨S1048576x16, .f32⟩
  | .hbm, ⟨93, _⟩ => ⟨S1048576x16, .f32⟩
  | .hbm, ⟨94, _⟩ => ⟨S1048576x16, .f32⟩
  | .hbm, ⟨95, _⟩ => ⟨S1048576x16, .f32⟩
  | .hbm, ⟨96, _⟩ => ⟨S1048576x16, .f32⟩
  | .hbm, ⟨97, _⟩ => ⟨S1048576x16, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_c_0 : Ref sig .tc := ⟨.hbm, 22, rfl⟩
abbrev main_c_1 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call0_cst : Ref sig .tc := ⟨.hbm, 48, rfl⟩
abbrev main_call0_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_cst : Ref sig .tc := ⟨.hbm, 55, rfl⟩
abbrev main_call1_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call2_cst : Ref sig .tc := ⟨.hbm, 62, rfl⟩
abbrev main_call2_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst : Ref sig .tc := ⟨.hbm, 73, rfl⟩
abbrev main_cst_2 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_3 : Ref sig .tc := ⟨.hbm, 86, rfl⟩
abbrev main_cst_4 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  bcast_S_S60 : S_.BroadcastsInDim S60 (![] : Fin 0 → Fin S60.rank)
  bcast_S60_S60x1_0 : S60.BroadcastsInDim S60x1 (![0] : Fin 1 → Fin S60x1.rank)
  concatenates_S1048576x60_S1048576x16_S1048576x76_d1 : Shape.Concatenates [S1048576x60, S1048576x16] S1048576x76 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S76_S1x76_1 : S76.BroadcastsInDim S1x76 (![1] : Fin 1 → Fin S1x76.rank)
  bcast_S1x76_S1048576x76_0_1 : S1x76.BroadcastsInDim S1048576x76 (![0, 1] : Fin 2 → Fin S1048576x76.rank)
  bcast_S_S1048576x64 : S_.BroadcastsInDim S1048576x64 (![] : Fin 0 → Fin S1048576x64.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  gather_S1048576x64_S60x1_S1048576x60_0_1_n_n_1_1_10485761_wf : GatherDims.WF S1048576x64 S60x1 S1048576x60 [0] [1] [] [1] [] 1 ![1048576, 1]
  dot_S1048576x76_S76x64_S1048576x64_1_0_0_1_n_n_wf : DotDims.WF S1048576x76 S76x64 S1048576x64 [1] [0] [0] [1] [] []
  dot_S1048576x64_S64x64_S1048576x64_1_0_0_1_n_n_wf : DotDims.WF S1048576x64 S64x64 S1048576x64 [1] [0] [0] [1] [] []
  dot_S1048576x64_S64x76_S1048576x76_1_0_0_1_n_n_wf : DotDims.WF S1048576x64 S64x76 S1048576x76 [1] [0] [0] [1] [] []
  dot_S1048576x64_S64x32_S1048576x32_1_0_0_1_n_n_wf : DotDims.WF S1048576x64 S64x32 S1048576x32 [1] [0] [0] [1] [] []
  dot_S1048576x32_S32x16_S1048576x16_1_0_0_1_n_n_wf : DotDims.WF S1048576x32 S32x16 S1048576x16 [1] [0] [0] [1] [] []
  dot_S1048576x16_S16x16_S1048576x16_1_0_0_1_n_n_wf : DotDims.WF S1048576x16 S16x16 S1048576x16 [1] [0] [0] [1] [] []

variable [Facts₀]

def gather_S1048576x64_S60x1_S1048576x60_0_1_n_n_1_1_10485761 : GatherDims S1048576x64 S60x1 S1048576x60 where
  offsetDims := [0]
  collapsedSliceDims := [1]
  operandBatchingDims := []
  startIndicesBatchingDims := []
  startIndexMap := [1]
  indexVectorDim := 1
  sliceSizes := ![1048576, 1]
  wf := gather_S1048576x64_S60x1_S1048576x60_0_1_n_n_1_1_10485761_wf
def dot_S1048576x76_S76x64_S1048576x64_1_0_0_1_n_n : DotDims S1048576x76 S76x64 S1048576x64 where
  lhsContracting := [1]
  rhsContracting := [0]
  lhsNonContracting := [0]
  rhsNonContracting := [1]
  lhsBatch := []
  rhsBatch := []
  wf := dot_S1048576x76_S76x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x76_S1048576x76_1_0_0_1_n_n : DotDims S1048576x64 S64x76 S1048576x76 where
  lhsContracting := [1]
  rhsContracting := [0]
  lhsNonContracting := [0]
  rhsNonContracting := [1]
  lhsBatch := []
  rhsBatch := []
  wf := dot_S1048576x64_S64x76_S1048576x76_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf

class Facts : Prop extends Facts₀ where

variable [Facts]
-- ==== Proof.RefStages.lean ====
/-
  The reference network, stage by stage, as pure functions of its argument arrays.

  A row of the input is the 60 kept observation columns (columns 4 to 63) followed by the 16 label columns.  It goes
  through three affine layers with tanh between them (76 -> 64 -> 64 -> 76), then four affine layers with a
  rectifier between them (76 -> 64 -> 64 -> 32 -> 16) to a latent row z.  Two affine heads of z give the mean,
  tanh of the head clipped to [-7.24, 7.24], and the variance, exp of the head clipped to [-5, 2]; the sample is
  mean + sqrt(variance) * eps.  Every definition below is one line group of the host program, so the program's run
  ends at these terms by unfolding.
-/
import proofs.«131808_j3762391351958_1_alg».proof.Proof.Gen.ReferenceIdeal

noncomputable section

namespace Cert.ReferenceIdeal.Stages

open Cert.ReferenceIdeal Idealize.ShloMosaic
open Facts₀ Facts

variable {F : FTy → Type} [FloatOps F]

/-- The start indices of the column gather: the table 4, 5, ..., 63 (the wrap-around of negative entries selects
    nothing, every entry being nonnegative), as a [60, 1] array. -/
def keptColumns : (⟨S60x1, .i32⟩ : BufTy).Contents (Elt F) :=
  broadcastInDim S60x1 ![0] bcast_S60_S60x1_0
    (select (constantI S60 1 0#1)
      (addi (fun i => lit0 (S60.rowMajor i)) (broadcastInDim S60 ![] bcast_S_S60 (constantI S_ 32 64#32)))
      (fun i => lit0 (S60.rowMajor i)))

/-- The network's input rows: the kept observation columns, then the label columns. -/
def joined (obs : (⟨S1048576x64, .f32⟩ : BufTy).Contents (Elt F)) (y : (⟨S1048576x16, .f32⟩ : BufTy).Contents (Elt F)) :
    (⟨S1048576x76, .f32⟩ : BufTy).Contents (Elt F) :=
  concatenate S1048576x76 1
    [⟨S1048576x60, Host.gather gather_S1048576x64_S60x1_S1048576x60_0_1_n_n_1_1_10485761 obs (keptColumns (F := F))⟩, ⟨S1048576x16, y⟩]
    concatenates_S1048576x60_S1048576x16_S1048576x76_d1

/-- An affine layer from 76 to 64 columns: x · w + b, the bias row repeated down the rows. -/
def affine76x64 (x : (⟨S1048576x76, .f32⟩ : BufTy).Contents (Elt F)) (w : (⟨S76x64, .f32⟩ : BufTy).Contents (Elt F))
    (b : (⟨S64, .f32⟩ : BufTy).Contents (Elt F)) : (⟨S1048576x64, .f32⟩ : BufTy).Contents (Elt F) :=
  addf (Host.dotGeneral dot_S1048576x76_S76x64_S1048576x64_1_0_0_1_n_n none x w)
    (broadcastInDim S1048576x64 ![0, 1] bcast_S1x64_S1048576x64_0_1 (broadcastInDim S1x64 ![1] bcast_S64_S1x64_1 b))

/-- An affine layer from 64 to 64 columns. -/
def affine64x64 (x : (⟨S1048576x64, .f32⟩ : BufTy).Contents (Elt F)) (w : (⟨S64x64, .f32⟩ : BufTy).Contents (Elt F))
    (b : (⟨S64, .f32⟩ : BufTy).Contents (Elt F)) : (⟨S1048576x64, .f32⟩ : BufTy).Contents (Elt F) :=
  addf (Host.dotGeneral dot_S1048576x64_S64x64_S1048576x64_1_0_0_1_n_n none x w)
    (broadcastInDim S1048576x64 ![0, 1] bcast_S1x64_S1048576x64_0_1 (broadcastInDim S1x64 ![1] bcast_S64_S1x64_1 b))

/-- An affine layer from 64 to 76 columns. -/
def affine64x76 (x : (⟨S1048576x64, .f32⟩ : BufTy).Contents (Elt F)) (w : (⟨S64x76, .f32⟩ : BufTy).Contents (Elt F))
    (b : (⟨S76, .f32⟩ : BufTy).Contents (Elt F)) : (⟨S1048576x76, .f32⟩ : BufTy).Contents (Elt F) :=
  addf (Host.dotGeneral dot_S1048576x64_S64x76_S1048576x76_1_0_0_1_n_n none x w)
    (broadcastInDim S1048576x76 ![0, 1] bcast_S1x76_S1048576x76_0_1 (broadcastInDim S1x76 ![1] bcast_S76_S1x76_1 b))

/-- An affine layer from 64 to 32 columns. -/
def affine64x32 (x : (⟨S1048576x64, .f32⟩ : BufTy).Contents (Elt F)) (w : (⟨S64x32, .f32⟩ : BufTy).Contents (Elt F))
    (b : (⟨S32, .f32⟩ : BufTy).Contents (Elt F)) : (⟨S1048576x32, .f32⟩ : BufTy).Contents (Elt F) :=
  addf (Host.dotGeneral dot_S1048576x64_S64x32_S1048576x32_1_0_0_1_n_n none x w)
    (broadcastInDim S1048576x32 ![0, 1] bcast_S1x32_S1048576x32_0_1 (broadcastInDim S1x32 ![1] bcast_S32_S1x32_1 b))

/-- An affine layer from 32 to 16 columns. -/
def affine32x16 (x : (⟨S1048576x32, .f32⟩ : BufTy).Contents (Elt F)) (w : (⟨S32x16, .f32⟩ : BufTy).Contents (Elt F))
    (b : (⟨S16, .f32⟩ : BufTy).Contents (Elt F)) : (⟨S1048576x16, .f32⟩ : BufTy).Contents (Elt F) :=
  addf (Host.dotGeneral dot_S1048576x32_S32x16_S1048576x16_1_0_0_1_n_n none x w)
    (broadcastInDim S1048576x16 ![0, 1] bcast_S1x16_S1048576x16_0_1 (broadcastInDim S1x16 ![1] bcast_S16_S1x16_1 b))

/-- An affine layer from 16 to 16 columns. -/
def affine16x16 (x : (⟨S1048576x16, .f32⟩ : BufTy).Contents (Elt F)) (w : (⟨S16x16, .f32⟩ : BufTy).Contents (Elt F))
    (b : (⟨S16, .f32⟩ : BufTy).Contents (Elt F)) : (⟨S1048576x16, .f32⟩ : BufTy).Contents (Elt F) :=
  addf (Host.dotGeneral dot_S1048576x16_S16x16_S1048576x16_1_0_0_1_n_n none x w)
    (broadcastInDim S1048576x16 ![0, 1] bcast_S1x16_S1048576x16_0_1 (broadcastInDim S1x16 ![1] bcast_S16_S1x16_1 b))

/-- The rectifier on 64 columns: the larger of the entry and zero. -/
def rectify64 (x : (⟨S1048576x64, .f32⟩ : BufTy).Contents (Elt F)) : (⟨S1048576x64, .f32⟩ : BufTy).Contents (Elt F) :=
  maximumf x (broadcastInDim S1048576x64 ![] bcast_S_S1048576x64 (constant S_ .f32 0x00000000#32))

/-- The rectifier on 32 columns. -/
def rectify32 (x : (⟨S1048576x32, .f32⟩ : BufTy).Contents (Elt F)) : (⟨S1048576x32, .f32⟩ : BufTy).Contents (Elt F) :=
  maximumf x (broadcastInDim S1048576x32 ![] bcast_S_S1048576x32 (constant S_ .f32 0x00000000#32))

/-- Clipping into [lo, hi]: first raised to lo, then lowered to hi. -/
def clip16 (x : (⟨S1048576x16, .f32⟩ : BufTy).Contents (Elt F)) (lo hi : (⟨S_, .f32⟩ : BufTy).Contents (Elt F)) :
    (⟨S1048576x16, .f32⟩ : BufTy).Contents (Elt F) :=
  minimumf (broadcastInDim S1048576x16 ![] bcast_S_S1048576x16 (id hi))
    (maximumf (broadcastInDim S1048576x16 ![] bcast_S_S1048576x16 (id lo)) x)

/-- The embedding: 76 -> 64 -> 64 -> 76 with tanh after the first two layers. -/
def embedded (x : (⟨S1048576x76, .f32⟩ : BufTy).Contents (Elt F))
    (ew1 : (⟨S76x64, .f32⟩ : BufTy).Contents (Elt F)) (eb1 : (⟨S64, .f32⟩ : BufTy).Contents (Elt F))
    (ew2 : (⟨S64x64, .f32⟩ : BufTy).Contents (Elt F)) (eb2 : (⟨S64, .f32⟩ : BufTy).Contents (Elt F))
    (ew3 : (⟨S64x76, .f32⟩ : BufTy).Contents (Elt F)) (eb3 : (⟨S76, .f32⟩ : BufTy).Contents (Elt F)) :
    (⟨S1048576x76, .f32⟩ : BufTy).Contents (Elt F) :=
  affine64x76 (Host.tanh (affine64x64 (Host.tanh (affine76x64 x ew1 eb1)) ew2 eb2)) ew3 eb3

/-- The encoder: 76 -> 64 -> 64 -> 32 -> 16 with the rectifier after the first three layers; the latent row. -/
def latent (h : (⟨S1048576x76, .f32⟩ : BufTy).Contents (Elt F))
    (cw1 : (⟨S76x64, .f32⟩ : BufTy).Contents (Elt F)) (cb1 : (⟨S64, .f32⟩ : BufTy).Contents (Elt F))
    (cw2 : (⟨S64x64, .f32⟩ : BufTy).Contents (Elt F)) (cb2 : (⟨S64, .f32⟩ : BufTy).Contents (Elt F))
    (cw3 : (⟨S64x32, .f32⟩ : BufTy).Contents (Elt F)) (cb3 : (⟨S32, .f32⟩ : BufTy).Contents (Elt F))
    (cw4 : (⟨S32x16, .f32⟩ : BufTy).Contents (Elt F)) (cb4 : (⟨S16, .f32⟩ : BufTy).Contents (Elt F)) :
    (⟨S1048576x16, .f32⟩ : BufTy).Contents (Elt F) :=
  affine32x16 (rectify32 (affine64x32 (rectify64 (affine64x64 (rectify64 (affine76x64 h cw1 cb1)) cw2 cb2)) cw3 cb3)) cw4 cb4

/-- The mean: tanh of the mean head clipped to [-7.24, 7.24]. -/
def mean (z : (⟨S1048576x16, .f32⟩ : BufTy).Contents (Elt F))
    (mw : (⟨S16x16, .f32⟩ : BufTy).Contents (Elt F)) (mb : (⟨S16, .f32⟩ : BufTy).Contents (Elt F)) :
    (⟨S1048576x16, .f32⟩ : BufTy).Contents (Elt F) :=
  Host.tanh (clip16 (affine16x16 z mw mb) (constant S_ .f32 0xC0E7AE14#32) (constant S_ .f32 0x40E7AE14#32))

/-- The variance: exp of the log-variance head clipped to [-5, 2]. -/
def variance (z : (⟨S1048576x16, .f32⟩ : BufTy).Contents (Elt F))
    (lw : (⟨S16x16, .f32⟩ : BufTy).Contents (Elt F)) (lb : (⟨S16, .f32⟩ : BufTy).Contents (Elt F)) :
    (⟨S1048576x16, .f32⟩ : BufTy).Contents (Elt F) :=
  Host.exp (clip16 (affine16x16 z lw lb) (constant S_ .f32 0xC0A00000#32) (constant S_ .f32 0x40000000#32))

/-- The sample: mean + sqrt(variance) * eps. -/
def sample (mu var eps : (⟨S1048576x16, .f32⟩ : BufTy).Contents (Elt F)) : (⟨S1048576x16, .f32⟩ : BufTy).Contents (Elt F) :=
  addf mu (mulf (Host.sqrt var) eps)

/-- The latent rows as a function of the observation, the labels and the fourteen embedding and encoder parameters. -/
def latentOf (obs : (⟨S1048576x64, .f32⟩ : BufTy).Contents (Elt F)) (y : (⟨S1048576x16, .f32⟩ : BufTy).Contents (Elt F))
    (ew1 : (⟨S76x64, .f32⟩ : BufTy).Contents (Elt F)) (eb1 : (⟨S64, .f32⟩ : BufTy).Contents (Elt F)) (ew2 : (⟨S64x64, .f32⟩ : BufTy).Contents (Elt F)) (eb2 : (⟨S64, .f32⟩ : BufTy).Contents (Elt F))
    (ew3 : (⟨S64x76, .f32⟩ : BufTy).Contents (Elt F)) (eb3 : (⟨S76, .f32⟩ : BufTy).Contents (Elt F)) (cw1 : (⟨S76x64, .f32⟩ : BufTy).Contents (Elt F)) (cb1 : (⟨S64, .f32⟩ : BufTy).Contents (Elt F))
    (cw2 : (⟨S64x64, .f32⟩ : BufTy).Contents (Elt F)) (cb2 : (⟨S64, .f32⟩ : BufTy).Contents (Elt F)) (cw3 : (⟨S64x32, .f32⟩ : BufTy).Contents (Elt F)) (cb3 : (⟨S32, .f32⟩ : BufTy).Contents (Elt F))
    (cw4 : (⟨S32x16, .f32⟩ : BufTy).Contents (Elt F)) (cb4 : (⟨S16, .f32⟩ : BufTy).Contents (Elt F)) : (⟨S1048576x16, .f32⟩ : BufTy).Contents (Elt F) :=
  latent (embedded (joined obs y) ew1 eb1 ew2 eb2 ew3 eb3) cw1 cb1 cw2 cb2 cw3 cb3 cw4 cb4

/-- The mean output as a function of the arguments it depends on. -/
def meanOf (obs : (⟨S1048576x64, .f32⟩ : BufTy).Contents (Elt F)) (y : (⟨S1048576x16, .f32⟩ : BufTy).Contents (Elt F))
    (ew1 : (⟨S76x64, .f32⟩ : BufTy).Contents (Elt F)) (eb1 : (⟨S64, .f32⟩ : BufTy).Contents (Elt F)) (ew2 : (⟨S64x64, .f32⟩ : BufTy).Contents (Elt F)) (eb2 : (⟨S64, .f32⟩ : BufTy).Contents (Elt F))
    (ew3 : (⟨S64x76, .f32⟩ : BufTy).Contents (Elt F)) (eb3 : (⟨S76, .f32⟩ : BufTy).Contents (Elt F)) (cw1 : (⟨S76x64, .f32⟩ : BufTy).Contents (Elt F)) (cb1 : (⟨S64, .f32⟩ : BufTy).Contents (Elt F))
    (cw2 : (⟨S64x64, .f32⟩ : BufTy).Contents (Elt F)) (cb2 : (⟨S64, .f32⟩ : BufTy).Contents (Elt F)) (cw3 : (⟨S64x32, .f32⟩ : BufTy).Contents (Elt F)) (cb3 : (⟨S32, .f32⟩ : BufTy).Contents (Elt F))
    (cw4 : (⟨S32x16, .f32⟩ : BufTy).Contents (Elt F)) (cb4 : (⟨S16, .f32⟩ : BufTy).Contents (Elt F))
    (mw : (⟨S16x16, .f32⟩ : BufTy).Contents (Elt F)) (mb : (⟨S16, .f32⟩ : BufTy).Contents (Elt F)) : (⟨S1048576x16, .f32⟩ : BufTy).Contents (Elt F) :=
  mean (latentOf obs y ew1 eb1 ew2 eb2 ew3 eb3 cw1 cb1 cw2 cb2 cw3 cb3 cw4 cb4) mw mb

/-- The variance output as a function of the arguments it depends on. -/
def varianceOf (obs : (⟨S1048576x64, .f32⟩ : BufTy).Contents (Elt F)) (y : (⟨S1048576x16, .f32⟩ : BufTy).Contents (Elt F))
    (ew1 : (⟨S76x64, .f32⟩ : BufTy).Contents (Elt F)) (eb1 : (⟨S64, .f32⟩ : BufTy).Contents (Elt F)) (ew2 : (⟨S64x64, .f32⟩ : BufTy).Contents (Elt F)) (eb2 : (⟨S64, .f32⟩ : BufTy).Contents (Elt F))
    (ew3 : (⟨S64x76, .f32⟩ : BufTy).Contents (Elt F)) (eb3 : (⟨S76, .f32⟩ : BufTy).Contents (Elt F)) (cw1 : (⟨S76x64, .f32⟩ : BufTy).Contents (Elt F)) (cb1 : (⟨S64, .f32⟩ : BufTy).Contents (Elt F))
    (cw2 : (⟨S64x64, .f32⟩ : BufTy).Contents (Elt F)) (cb2 : (⟨S64, .f32⟩ : BufTy).Contents (Elt F)) (cw3 : (⟨S64x32, .f32⟩ : BufTy).Contents (Elt F)) (cb3 : (⟨S32, .f32⟩ : BufTy).Contents (Elt F))
    (cw4 : (⟨S32x16, .f32⟩ : BufTy).Contents (Elt F)) (cb4 : (⟨S16, .f32⟩ : BufTy).Contents (Elt F))
    (lw : (⟨S16x16, .f32⟩ : BufTy).Contents (Elt F)) (lb : (⟨S16, .f32⟩ : BufTy).Contents (Elt F)) : (⟨S1048576x16, .f32⟩ : BufTy).Contents (Elt F) :=
  variance (latentOf obs y ew1 eb1 ew2 eb2 ew3 eb3 cw1 cb1 cw2 cb2 cw3 cb3 cw4 cb4) lw lb

/-- The sample output as a function of all twenty-one arguments. -/
def sampleOf (obs : (⟨S1048576x64, .f32⟩ : BufTy).Contents (Elt F)) (y : (⟨S1048576x16, .f32⟩ : BufTy).Contents (Elt F))
    (ew1 : (⟨S76x64, .f32⟩ : BufTy).Contents (Elt F)) (eb1 : (⟨S64, .f32⟩ : BufTy).Contents (Elt F)) (ew2 : (⟨S64x64, .f32⟩ : BufTy).Contents (Elt F)) (eb2 : (⟨S64, .f32⟩ : BufTy).Contents (Elt F))
    (ew3 : (⟨S64x76, .f32⟩ : BufTy).Contents (Elt F)) (eb3 : (⟨S76, .f32⟩ : BufTy).Contents (Elt F)) (cw1 : (⟨S76x64, .f32⟩ : BufTy).Contents (Elt F)) (cb1 : (⟨S64, .f32⟩ : BufTy).Contents (Elt F))
    (cw2 : (⟨S64x64, .f32⟩ : BufTy).Contents (Elt F)) (cb2 : (⟨S64, .f32⟩ : BufTy).Contents (Elt F)) (cw3 : (⟨S64x32, .f32⟩ : BufTy).Contents (Elt F)) (cb3 : (⟨S32, .f32⟩ : BufTy).Contents (Elt F))
    (cw4 : (⟨S32x16, .f32⟩ : BufTy).Contents (Elt F)) (cb4 : (⟨S16, .f32⟩ : BufTy).Contents (Elt F))
    (mw : (⟨S16x16, .f32⟩ : BufTy).Contents (Elt F)) (mb : (⟨S16, .f32⟩ : BufTy).Contents (Elt F)) (lw : (⟨S16x16, .f32⟩ : BufTy).Contents (Elt F)) (lb : (⟨S16, .f32⟩ : BufTy).Contents (Elt F))
    (eps : (⟨S1048576x16, .f32⟩ : BufTy).Contents (Elt F)) : (⟨S1048576x16, .f32⟩ : BufTy).Contents (Elt F) :=
  sample (meanOf obs y ew1 eb1 ew2 eb2 ew3 eb3 cw1 cb1 cw2 cb2 cw3 cb3 cw4 cb4 mw mb)
    (varianceOf obs y ew1 eb1 ew2 eb2 ew3 eb3 cw1 cb1 cw2 cb2 cw3 cb3 cw4 cb4 lw lb) eps

end Cert.ReferenceIdeal.Stages

end
-- ==== Proof.LibColumnGather.lean ====
/-
  A column gather read at an index.

  `x[:, idx]` along the second axis of an [N, C] table, with one start word per result column (start indices [E, 1],
  result [N, E]): result element (n, e) is the table at (n, the start word of e read signed and clamped into
  [0, C - 1]).  The first operand axis is the one offset axis (the whole column is the slice), the second is collapsed
  and is the one axis the start index addresses.
-/
import Idealize.ShloMosaic.PureOps.Ideal
import Idealize.ShloMosaic.Lib.ValueIdx

noncomputable section

namespace Idealize.ShloMosaic.ColumnGather

open Idealize.ShloMosaic Idealize.ShloMosaic.ValueIdx

/-- The dimension numbers of a column gather: operand [N, C], start indices [E, 1], result [N, E]; the result's first
    axis is the offset axis, the operand's second axis is collapsed and addressed by the start word, and a slice is a
    whole column (N rows, one column wide). -/
abbrev columnGather (N C E : Nat)
    (wf : GatherDims.WF ⟨2, ![N, C]⟩ ⟨2, ![E, 1]⟩ ⟨2, ![N, E]⟩ [0] [1] [] [1] [] 1 ![N, 1]) :
    GatherDims ⟨2, ![N, C]⟩ ⟨2, ![E, 1]⟩ ⟨2, ![N, E]⟩ where
  offsetDims := [0]
  collapsedSliceDims := [1]
  operandBatchingDims := []
  startIndicesBatchingDims := []
  startIndexMap := [1]
  indexVectorDim := 1
  sliceSizes := ![N, 1]
  wf := wf

/-- THE COLUMN GATHER READ AT (n, e): the table at row n, the clamped start column of e. -/
theorem columnGather_apply {α : Type} {N C E w : Nat} (hC : 0 < C)
    (wf : GatherDims.WF ⟨2, ![N, C]⟩ ⟨2, ![E, 1]⟩ ⟨2, ![N, E]⟩ [0] [1] [] [1] [] 1 ![N, 1])
    (x : (⟨2, ![N, C]⟩ : Shape).Idx → α) (idx : IVec ⟨2, ![E, 1]⟩ w) (n : Fin N) (e : Fin E) :
    Host.gather (columnGather N C E wf) x idx (ix2 n e)
      = x (ix2 n (⟨min (idx (ix2 e (0 : Fin 1))).toInt.toNat (C - 1), by omega⟩ : Fin C)) := by
  unfold Host.gather
  congr 1
  funext a
  refine Fin.ext ?_
  match a with
  | ⟨0, _⟩ =>
    -- the row axis: not addressed (start 0), not batching, the one kept axis: the offset coordinate is n
    show (columnGather N C E wf).start (ix2 n e) idx 0 + (columnGather N C E wf).batchCoord (ix2 n e) 0
      + (columnGather N C E wf).offCoord (ix2 n e) 0 = n.val
    rw [GatherDims.batchCoord_eq_zero _ _ _ List.not_mem_nil]
    unfold GatherDims.start
    rw [dif_neg (show (0 : Fin 2) ∉ ([1] : List (Fin 2)) by decide)]
    simp only [Nat.add_zero, Nat.zero_add]
    unfold GatherDims.offCoord
    rw [dif_pos ((GatherDims.mem_sKept _ _).mpr ⟨(show (0 : Fin 2) ∉ ([1] : List (Fin 2)) by decide), List.not_mem_nil⟩)]
    rfl
  | ⟨1, _⟩ =>
    -- the column axis: addressed by the start word of e, clamped into [0, C - 1]; collapsed, so no offset
    show (columnGather N C E wf).start (ix2 n e) idx 1 + (columnGather N C E wf).batchCoord (ix2 n e) 1
      + (columnGather N C E wf).offCoord (ix2 n e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (columnGather N C E wf).startIndexMap from List.mem_singleton.mpr rfl)]
    have hsi : (columnGather N C E wf).siIdx (ix2 n e) ⟨List.idxOf (1 : Fin 2) (columnGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.ColumnGather

end
-- ==== Proof.InputRows.lean ====
/-
  The network's input rows read at an index.

  The start indices of the column gather are the table 4, 5, ..., 63: the select's mask is constantly false, so the
  select returns the table itself, and the broadcast only adds a unit axis.  Hence column k < 60 of an input row is
  column k + 4 of the observation (the start word 4 + k, read signed, is already inside [0, 63], so the clamp does
  nothing), and column 60 + k is column k of the labels.
-/
import proofs.«131808_j3762391351958_1_alg».proof.Proof.RefStages
import proofs.«131808_j3762391351958_1_alg».proof.Proof.LibColumnGather
import Idealize.ShloMosaic.Lib.Pipeline.Value
import Idealize.ShloMosaic.Lib.ValueIdx

noncomputable section

namespace Cert.ReferenceIdeal.InputRows

open Idealize.ShloMosaic Idealize.ShloMosaic.ValueIdx Cert.ReferenceIdeal Cert.ReferenceIdeal.Stages
open Facts₀ Facts

variable {F : FTy → Type} [FloatOps F]

/-- The word at position p of the index table, read signed and clamped into [0, 63], is p + 4: the table is
    4, 5, ..., 63. -/
theorem lit0_column : ∀ p : Fin 60, min (lit0 p).toInt.toNat (64 - 1) = p.val + 4 := by
  decide

/-- The start word of result column e is the table's entry e: the mask of the select is constantly false, so the
    wrapped-around alternative is never taken, and the broadcast reads the vector at e. -/
theorem keptColumns_apply (e : Fin 60) : keptColumns (F := F) (ix2 e (0 : Fin 1)) = lit0 e := by
  unfold keptColumns
  rw [broadcastInDim_apply _ _ _ _ (ix1 e) (fun a => by
    match a with
    | ⟨0, _⟩ => rfl)]
  rw [select_apply]
  show Scalar.select 0#1 _ _ = _
  rw [select_zero]
  exact congrArg lit0 (Fin.ext (Shape.rowMajor_val_one (ix1 e)))

/-- Column k < 60 of an input row is column k + 4 of the observation. -/
theorem joined_kept (obs : (⟨S1048576x64, .f32⟩ : BufTy).Contents (Elt F)) (y : (⟨S1048576x16, .f32⟩ : BufTy).Contents (Elt F))
    (r : Fin 1048576) (k : Fin 60) :
    joined obs y (ix2 r (⟨k.val, by omega⟩ : Fin 76)) = obs (ix2 r (⟨k.val + 4, by omega⟩ : Fin 64)) := by
  unfold joined
  rw [concatenate_pair_apply_left (t := S1048576x76) (s₁ := S1048576x60) (s₂ := S1048576x16) _ _ _ _ _ rfl (ix2 r k) (fun b => by
    match b with
    | ⟨0, _⟩ => rfl
    | ⟨1, _⟩ => rfl)]
  show Host.gather (ColumnGather.columnGather 1048576 64 60 gather_S1048576x64_S60x1_S1048576x60_0_1_n_n_1_1_10485761_wf)
    obs (keptColumns (F := F)) (ix2 r k) = _
  rw [ColumnGather.columnGather_apply (by omega)]
  refine congrArg (fun c => obs (ix2 r c)) (Fin.ext ?_)
  show min (keptColumns (F := F) (ix2 k (0 : Fin 1))).toInt.toNat (64 - 1) = k.val + 4
  rw [keptColumns_apply]
  exact lit0_column k

/-- Column 60 + k of an input row is column k of the labels. -/
theorem joined_label (obs : (⟨S1048576x64, .f32⟩ : BufTy).Contents (Elt F)) (y : (⟨S1048576x16, .f32⟩ : BufTy).Contents (Elt F))
    (r : Fin 1048576) (k : Fin 16) :
    joined obs y (ix2 r (⟨60 + k.val, by omega⟩ : Fin 76)) = y (ix2 r k) := by
  unfold joined
  refine concatenate_pair_apply_right (t := S1048576x76) (s₁ := S1048576x60) (s₂ := S1048576x16) _ _ _ _ _ rfl rfl (ix2 r k)
    (fun b hb => ?_) ?_
  · match b with
    | ⟨0, _⟩ => rfl
    | ⟨1, _⟩ => exact absurd rfl hb
  · show k.val + 60 = 60 + k.val
    omega

end Cert.ReferenceIdeal.InputRows

end
-- ==== Proof.LibPlainDot.lean ====
/-
  A matrix product with the plain dimension numbers, read at an index.

  For an [M, K] array times a [K, N] array, contracted over the left operand's second axis and the right operand's
  first, with no batch axis, the operand indices at result index (i, j) and contraction position k are (i, k) and
  (k, j).  So on the extended reals the product into a zero accumulator, and the host's dot product, are both
  the plain sum over k of l (i, k) * r (k, j).
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The plain dimension numbers of an [M, K] by [K, N] product: contract axis 1 of the left operand with axis 0 of
    the right, keep axis 0 of the left and axis 1 of the right, no batch axis. -/
structure Plain (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {d : DotDims ⟨2, ![M, K]⟩ ⟨2, ![K, N]⟩ ⟨2, ![M, N]⟩}

/-- One axis is contracted. -/
theorem Plain.rank_contr (h : Plain d) : d.contr.rank = 1 := by
  rw [d.rank_contr, h.lhsContracting]; rfl

/-- Its extent is the shared dimension K. -/
theorem Plain.size_contr (h : Plain d) : d.contr.size ⟨0, by rw [h.rank_contr]; exact Nat.one_pos⟩ = K := by
  have hp : 0 < d.lhsContracting.length := by rw [h.lhsContracting]; exact Nat.one_pos
  have e := d.size_contr 0 hp
  rw [e]
  have : d.lhsContracting[0] = (1 : Fin 2) := by simp [h.lhsContracting]
  rw [this]
  rfl

/-- The left operand's row at result index (i, j) is i. -/
theorem Plain.lhsIdx_row (h : Plain d) (i : Fin M) (j : Fin N) (q : d.contr.Idx) :
    (d.lhsIdx (ix2 i j) q (0 : Fin 2)).val = i.val := by
  have hb : (0 : Fin 2) ∉ d.lhsBatch := by rw [h.lhsBatch]; exact List.not_mem_nil
  have hn : (0 : Fin 2) ∈ d.lhsNonContracting := by rw [h.lhsNonContracting]; exact List.mem_singleton.mpr rfl
  unfold DotDims.lhsIdx
  rw [dif_neg hb, dif_pos hn]
  simp only [Fin.val_cast]
  have key : ∀ (p : Nat) (hp : p < 2), p = 0 → ((ix2 i j : (⟨2, ![M, N]⟩ : Shape).Idx) ⟨p, hp⟩).val = i.val :=
    fun p hp e => by subst e; rfl
  exact key _ _ (by simp [h.lhsBatch, h.lhsNonContracting])

/-- The right operand's column at result index (i, j) is j. -/
theorem Plain.rhsIdx_col (h : Plain d) (i : Fin M) (j : Fin N) (q : d.contr.Idx) :
    (d.rhsIdx (ix2 i j) q (1 : Fin 2)).val = j.val := by
  have hb : (1 : Fin 2) ∉ d.rhsBatch := by rw [h.rhsBatch]; exact List.not_mem_nil
  have hn : (1 : Fin 2) ∈ d.rhsNonContracting := by rw [h.rhsNonContracting]; exact List.mem_singleton.mpr rfl
  unfold DotDims.rhsIdx
  rw [dif_neg hb, dif_pos hn]
  simp only [Fin.val_cast]
  have key : ∀ (p : Nat) (hp : p < 2), p = 1 → ((ix2 i j : (⟨2, ![M, N]⟩ : Shape).Idx) ⟨p, hp⟩).val = j.val :=
    fun p hp e => by subst e; rfl
  exact key _ _ (by simp [h.lhsBatch, h.lhsNonContracting, h.rhsNonContracting])

/-- THE SUM OVER THE CONTRACTION SHAPE IS THE SUM OVER k < K of l (i, k) * r (k, j). -/
theorem Plain.sum_eq (h : Plain d) (l : (⟨2, ![M, K]⟩ : Shape).Idx → EReal) (r : (⟨2, ![K, N]⟩ : Shape).Idx → EReal)
    (i : Fin M) (j : Fin N) :
    ∑ q : d.contr.Idx, l (d.lhsIdx (ix2 i j) q) * r (d.rhsIdx (ix2 i j) q) = ∑ k : Fin K, l (ix2 i k) * r (ix2 k j) := by
  rw [← Equiv.sum_comp (contrEquiv1 d K h.rank_contr h.size_contr).symm]
  refine Finset.sum_congr rfl fun k _ => ?_
  have hk := contrEquiv1_symm_val d K h.rank_contr h.size_contr k
  have el : d.lhsIdx (ix2 i j) ((contrEquiv1 d K h.rank_contr h.size_contr).symm k) = ix2 i k := by
    funext a; refine Fin.ext ?_
    match a with
    | ⟨0, _⟩ => exact h.lhsIdx_row i j _
    | ⟨1, _⟩ => exact (d.lhsIdx_val_of_single h.lhsContracting _ _).trans hk
  have er : d.rhsIdx (ix2 i j) ((contrEquiv1 d K h.rank_contr h.size_contr).symm k) = ix2 k j := by
    funext a; refine Fin.ext ?_
    match a with
    | ⟨0, _⟩ => exact (d.rhsIdx_val_of_single h.rhsContracting _ _).trans hk
    | ⟨1, _⟩ => exact h.rhsIdx_col i j _
  rw [el, er]

/-- A product into the zero accumulator, read at (i, j). -/
theorem Plain.matmul_zero_apply (h : Plain d) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul d prec lhs rhs (constant ⟨2, ![M, N]⟩ .f32 0x00000000#32) (ix2 i j)
      = ∑ k : Fin K, lhs (ix2 i k) * rhs (ix2 k j) := by
  rw [Ideal.matmul_constant_zero_apply]
  exact h.sum_eq lhs rhs i j

/-- The host's dot product, read at (i, j). -/
theorem Plain.dotGeneral_apply (h : Plain d) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral d prec sched lhs rhs (ix2 i j) = ∑ k : Fin K, lhs (ix2 i k) * rhs (ix2 k j) := by
  rw [Ideal.dotGeneral_apply]
  exact h.sum_eq lhs rhs i j

end Idealize.ShloMosaic.PlainDot

end
-- ==== Proof.RowLaws.lean ====
/-
  A block of rows of an array, and the network's steps on it.

  The kernel works on blocks of 2048 consecutive rows; block t of an array of 1048576 rows holds rows
  2048 * t + p for p < 2048.  Every step of the network acts on each row by itself, so if X is block t of A then
  the step applied to X is block t of the step applied to A: an affine layer (the product with a weight matrix plus a
  bias row), the pointwise functions, the rectifier, the clip.  The first layer is the one place where the two
  programs arrange the sum differently: the kernel multiplies the 60 kept columns and the 16 label columns by the
  upper and lower part of the weight matrix separately and adds, the reference joins the columns first; a sum
  over 76 = 60 + 16 positions splits, which needs only that addition is associative and commutative.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«131808_j3762391351958_1_alg».proof.Proof.LibPlainDot

noncomputable section

namespace Cert.RowLaws

open Idealize.ShloMosaic Idealize.ShloMosaic.ValueIdx Idealize.ShloMosaic.PlainDot

/-! ## Bias rows and scalars read at an index -/

section Layout
variable {α : Type}

/-- A [C] vector made a [1, C] row and repeated down N rows reads, at (r, q), the vector at q. -/
theorem biasRows_apply {N C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (r : Fin N) (q : Fin C) :
    broadcastInDim ⟨2, ![N, C]⟩ ![0, 1] h2 (broadcastInDim ⟨2, ![1, C]⟩ ![1] h1 b) (ix2 r q) = b (ix1 q) := by
  refine (broadcastInDim_apply _ h2 _ (ix2 r q) (ix2 (0 : Fin 1) q) fun a => ?_).trans
    (broadcastInDim_apply _ h1 _ (ix2 (0 : Fin 1) q) (ix1 q) fun a => ?_)
  · match a with
    | ⟨0, _⟩ => rfl
    | ⟨1, _⟩ =>
      show q.val = if C = 1 then 0 else q.val
      split
      · have := q.isLt; omega
      · rfl
  · match a with
    | ⟨0, _⟩ =>
      show q.val = if C = 1 then 0 else q.val
      split
      · have := q.isLt; omega
      · rfl

/-- A [1, C] row, recast to its own shape and repeated down R rows, reads, at (p, q), the row at q. -/
theorem biasBlock_apply {R C : Nat} (b : (⟨2, ![1, C]⟩ : Shape).Idx → α)
    (hsc : (⟨2, ![1, C]⟩ : Shape).ShapeCasts ⟨2, ![1, C]⟩) (hbt : (⟨2, ![1, C]⟩ : Shape).Broadcasts ⟨2, ![R, C]⟩)
    (p : Fin R) (q : Fin C) :
    broadcastTo ⟨2, ![R, C]⟩ (shapeCast ⟨2, ![1, C]⟩ b hsc) hbt (ix2 p q) = b (ix2 (0 : Fin 1) q) := by
  rw [shapeCast_self]
  exact broadcastTo_1b_ab_apply b hbt p q

/-- A scalar repeated over a whole shape reads the scalar everywhere. -/
theorem scalarFill_apply {S : Shape} (x : (⟨0, ![]⟩ : Shape).Idx → α) (h : (⟨0, ![]⟩ : Shape).BroadcastsInDim S ![]) (j : S.Idx) :
    broadcastInDim S ![] h x j = x ix0 :=
  broadcastInDim_apply _ h x j ix0 fun a => a.elim0

end Layout

/-! ## Blocks of rows -/

/-- Row p of block t is row 2048 * t + p of the array. -/
def row (t : Fin 512) (p : Fin 2048) : Fin 1048576 := ⟨t.val * 2048 + p.val, by have := t.isLt; have := p.isLt; omega⟩

/-- X is block t of A: its row p is the array's row 2048 * t + p. -/
def RowsOf {C : Nat} (t : Fin 512) (X : FVec Ideal ⟨2, ![2048, C]⟩ .f32) (A : FVec Ideal ⟨2, ![1048576, C]⟩ .f32) : Prop :=
  ∀ (p : Fin 2048) (q : Fin C), X (ix2 p q) = A (ix2 (row t p) q)

variable {t : Fin 512}

/-- AN AFFINE LAYER acts row by row: the kernel's product of the block (both operands passed through the narrower
    format, which changes nothing here) into a zero accumulator plus its bias row is block t of the reference's
    product plus bias. -/
theorem RowsOf.affine {K C : Nat}
    {dk : DotDims ⟨2, ![2048, K]⟩ ⟨2, ![K, C]⟩ ⟨2, ![2048, C]⟩} (hk : Plain dk)
    {dr : DotDims ⟨2, ![1048576, K]⟩ ⟨2, ![K, C]⟩ ⟨2, ![1048576, C]⟩} (hr : Plain dr)
    {X : FVec Ideal ⟨2, ![2048, K]⟩ .f32} {A : FVec Ideal ⟨2, ![1048576, K]⟩ .f32} (hXA : RowsOf t X A)
    (W : FVec Ideal ⟨2, ![K, C]⟩ .f32) {b : FVec Ideal ⟨2, ![1, C]⟩ .f32} {b' : FVec Ideal ⟨1, ![C]⟩ .f32}
    (hb : ∀ q : Fin C, b (ix2 (0 : Fin 1) q) = b' (ix1 q))
    (hlt : FTy.bf16.bits < FTy.f32.bits)
    (hsc : (⟨2, ![1, C]⟩ : Shape).ShapeCasts ⟨2, ![1, C]⟩) (hbt : (⟨2, ![1, C]⟩ : Shape).Broadcasts ⟨2, ![2048, C]⟩)
    (h1 : (⟨1, ![C]⟩ : Shape).BroadcastsInDim ⟨2, ![1, C]⟩ ![1])
    (h2 : (⟨2, ![1, C]⟩ : Shape).BroadcastsInDim ⟨2, ![1048576, C]⟩ ![0, 1]) :
    RowsOf t
      (addf (matmul dk none (truncf .bf16 X hlt) (truncf .bf16 W hlt) (constant ⟨2, ![2048, C]⟩ .f32 0x00000000#32))
        (broadcastTo ⟨2, ![2048, C]⟩ (shapeCast ⟨2, ![1, C]⟩ b hsc) hbt))
      (addf (Host.dotGeneral dr none A W)
        (broadcastInDim ⟨2, ![1048576, C]⟩ ![0, 1] h2 (broadcastInDim ⟨2, ![1, C]⟩ ![1] h1 b'))) := by
  intro p q
  show FloatOps.matmul dk none (truncf .bf16 X hlt) (truncf .bf16 W hlt) (constant ⟨2, ![2048, C]⟩ .f32 0x00000000#32) (ix2 p q)
      + broadcastTo ⟨2, ![2048, C]⟩ (shapeCast ⟨2, ![1, C]⟩ b hsc) hbt (ix2 p q)
    = FloatOps.dotGeneral dr none _ A W (ix2 (row t p) q)
      + broadcastInDim ⟨2, ![1048576, C]⟩ ![0, 1] h2 (broadcastInDim ⟨2, ![1, C]⟩ ![1] h1 b') (ix2 (row t p) q)
  rw [hk.matmul_zero_apply, hr.dotGeneral_apply, biasBlock_apply, biasRows_apply, hb q]
  refine congrArg (· + b' (ix1 q)) (Finset.sum_congr rfl fun k _ => ?_)
  show X (ix2 p k) * W (ix2 k q) = A (ix2 (row t p) k) * W (ix2 k q)
  rw [hXA p k]

/-- tanh acts entry by entry. -/
theorem RowsOf.tanh {C : Nat} {X : FVec Ideal ⟨2, ![2048, C]⟩ .f32} {A : FVec Ideal ⟨2, ![1048576, C]⟩ .f32}
    (h : RowsOf t X A) : RowsOf t (Idealize.ShloMosaic.tanh X) (Host.tanh A) := fun p q => by
  show Ideal.tanh (X (ix2 p q)) = Ideal.tanh (A (ix2 (row t p) q))
  rw [h p q]

/-- exp acts entry by entry. -/
theorem RowsOf.exp {C : Nat} {X : FVec Ideal ⟨2, ![2048, C]⟩ .f32} {A : FVec Ideal ⟨2, ![1048576, C]⟩ .f32}
    (h : RowsOf t X A) : RowsOf t (Idealize.ShloMosaic.exp X) (Host.exp A) := fun p q => by
  show Ideal.exp (X (ix2 p q)) = Ideal.exp (A (ix2 (row t p) q))
  rw [h p q]

/-- The square root acts entry by entry. -/
theorem RowsOf.sqrt {C : Nat} {X : FVec Ideal ⟨2, ![2048, C]⟩ .f32} {A : FVec Ideal ⟨2, ![1048576, C]⟩ .f32}
    (h : RowsOf t X A) : RowsOf t (Idealize.ShloMosaic.sqrt X) (Host.sqrt A) := fun p q => by
  show Ideal.sqrt (X (ix2 p q)) = Ideal.sqrt (A (ix2 (row t p) q))
  rw [h p q]

/-- Products entry by entry. -/
theorem RowsOf.mulf {C : Nat} {X Y : FVec Ideal ⟨2, ![2048, C]⟩ .f32} {A B : FVec Ideal ⟨2, ![1048576, C]⟩ .f32}
    (h : RowsOf t X A) (h' : RowsOf t Y B) : RowsOf t (Idealize.ShloMosaic.mulf X Y) (Idealize.ShloMosaic.mulf A B) := fun p q => by
  show X (ix2 p q) * Y (ix2 p q) = A (ix2 (row t p) q) * B (ix2 (row t p) q)
  rw [h p q, h' p q]

/-- Sums entry by entry. -/
theorem RowsOf.addf {C : Nat} {X Y : FVec Ideal ⟨2, ![2048, C]⟩ .f32} {A B : FVec Ideal ⟨2, ![1048576, C]⟩ .f32}
    (h : RowsOf t X A) (h' : RowsOf t Y B) : RowsOf t (Idealize.ShloMosaic.addf X Y) (Idealize.ShloMosaic.addf A B) := fun p q => by
  show X (ix2 p q) + Y (ix2 p q) = A (ix2 (row t p) q) + B (ix2 (row t p) q)
  rw [h p q, h' p q]

/-- The rectifier: the larger of the entry and the zero word, the kernel's zero a scalar repeated over the block, the
    reference's a scalar array repeated over the array. -/
theorem RowsOf.rectify {C : Nat} {X : FVec Ideal ⟨2, ![2048, C]⟩ .f32} {A : FVec Ideal ⟨2, ![1048576, C]⟩ .f32}
    (h : RowsOf t X A) (z : BitVec 32) (hz : (⟨0, ![]⟩ : Shape).BroadcastsInDim ⟨2, ![1048576, C]⟩ ![]) :
    RowsOf t (maximumf X (broadcast ⟨2, ![2048, C]⟩ (Scalar.ofBits (F := Ideal) .f32 z)))
      (maximumf A (broadcastInDim ⟨2, ![1048576, C]⟩ ![] hz (constant (F := Ideal) ⟨0, ![]⟩ .f32 z))) := fun p q => by
  show max (X (ix2 p q)) (Ideal.ofBits .f32 z)
    = max (A (ix2 (row t p) q)) (broadcastInDim ⟨2, ![1048576, C]⟩ ![] hz (constant (F := Ideal) ⟨0, ![]⟩ .f32 z) (ix2 (row t p) q))
  rw [scalarFill_apply, h p q]
  rfl

/-- The clip: raised to the lower bound, then lowered to the upper bound, the bounds the same two words on both sides. -/
theorem RowsOf.clip {C : Nat} {X : FVec Ideal ⟨2, ![2048, C]⟩ .f32} {A : FVec Ideal ⟨2, ![1048576, C]⟩ .f32}
    (h : RowsOf t X A) (lo hi : BitVec 32) (hz : (⟨0, ![]⟩ : Shape).BroadcastsInDim ⟨2, ![1048576, C]⟩ ![]) :
    RowsOf t
      (minimumf (broadcast ⟨2, ![2048, C]⟩ (Scalar.ofBits (F := Ideal) .f32 hi))
        (maximumf (broadcast ⟨2, ![2048, C]⟩ (Scalar.ofBits (F := Ideal) .f32 lo)) X))
      (minimumf (broadcastInDim ⟨2, ![1048576, C]⟩ ![] hz (id (constant (F := Ideal) ⟨0, ![]⟩ .f32 hi)))
        (maximumf (broadcastInDim ⟨2, ![1048576, C]⟩ ![] hz (id (constant (F := Ideal) ⟨0, ![]⟩ .f32 lo))) A)) := fun p q => by
  show min (Ideal.ofBits .f32 hi) (max (Ideal.ofBits .f32 lo) (X (ix2 p q)))
    = min (broadcastInDim ⟨2, ![1048576, C]⟩ ![] hz (id (constant (F := Ideal) ⟨0, ![]⟩ .f32 hi)) (ix2 (row t p) q))
        (max (broadcastInDim ⟨2, ![1048576, C]⟩ ![] hz (id (constant (F := Ideal) ⟨0, ![]⟩ .f32 lo)) (ix2 (row t p) q)) (A (ix2 (row t p) q)))
  rw [scalarFill_apply, scalarFill_apply, h p q]
  rfl

end Cert.RowLaws

end
-- ==== Proof.RowBridge.lean ====
/-
  The kernel's block computation is the reference network restricted to the block's rows.

  At a grid point the kernel holds block t (2048 rows) of the observations, the labels and the noise, and all of
  every weight matrix and bias row.  Its body is the same chain of row-wise steps as the reference network, so by
  the row laws each intermediate block is block t of the reference's intermediate array.  The one rearrangement is in
  the first layer: the kernel takes columns 4 to 63 of the observation block against rows 0 to 59 of the weight
  matrix, the label block against rows 60 to 75, and adds the two products; the reference multiplies the joined 76
  columns at once.  The sum over 76 positions is the sum over the first 60 plus the sum over the last 16.
-/
import proofs.«131808_j3762391351958_1_alg».proof.Proof.Gen.KernelIdeal.Skeleton
import proofs.«131808_j3762391351958_1_alg».proof.Proof.RefStages
import proofs.«131808_j3762391351958_1_alg».proof.Proof.InputRows
import proofs.«131808_j3762391351958_1_alg».proof.Proof.RowLaws

noncomputable section

namespace Cert.RowBridge

open Idealize.ShloMosaic Idealize.ShloMosaic.ValueIdx Idealize.ShloMosaic.PlainDot Cert.RowLaws
open Cert.KernelIdeal Cert.KernelIdeal.Gen
open Cert.ReferenceIdeal (Stages.joined Stages.affine76x64 Stages.embedded Stages.latent Stages.mean Stages.variance Stages.sample)

variable {t : Fin 512}

/-- THE FIRST LAYER.  Kept columns against the upper 60 rows of the weights plus labels against the lower 16 rows,
    plus the bias row, is block t of the joined rows times the whole weight matrix plus the bias. -/
theorem firstLayer_rows {X0 : Vec Ideal S2048x64 .f32} {X1 : Vec Ideal S2048x16 .f32}
    {obs : Vec Ideal S1048576x64 .f32} {y : Vec Ideal S1048576x16 .f32}
    (h0 : RowsOf t X0 obs) (h1 : RowsOf t X1 y)
    (W : Vec Ideal S76x64 .f32) {B : Vec Ideal S1x64 .f32} {eb : Vec Ideal S64 .f32}
    (hb : ∀ q : Fin 64, B (ix2 (0 : Fin 1) q) = eb (ix1 q))
    (hs1 : S2048x64.Slices ![0, 4] S2048x60) (hs2 : S76x64.Slices ![0, 0] S60x64) (hs3 : S76x64.Slices ![60, 0] S16x64)
    (hlt : FTy.bf16.bits < FTy.f32.bits) (hsc : S1x64.ShapeCasts S1x64) (hbt : S1x64.Broadcasts S2048x64) :
    RowsOf t
      (addf
        (addf
          (matmul dot_S2048x60_S60x64_S2048x64_1_0_0_1_n_n none
            (truncf .bf16 (extractStridedSlice S2048x60 ![0, 4] X0 hs1) hlt)
            (truncf .bf16 (extractStridedSlice S60x64 ![0, 0] W hs2) hlt) (constant S2048x64 .f32 0x00000000#32))
          (matmul dot_S2048x16_S16x64_S2048x64_1_0_0_1_n_n none (truncf .bf16 X1 hlt)
            (truncf .bf16 (extractStridedSlice S16x64 ![60, 0] W hs3) hlt) (constant S2048x64 .f32 0x00000000#32)))
        (broadcastTo S2048x64 (shapeCast S1x64 B hsc) hbt))
      (Cert.ReferenceIdeal.Stages.affine76x64 (Cert.ReferenceIdeal.Stages.joined obs y) W eb) := by
  intro p q
  have hk60 : Plain dot_S2048x60_S60x64_S2048x64_1_0_0_1_n_n := ⟨rfl, rfl, rfl, rfl, rfl, rfl⟩
  have hk16 : Plain dot_S2048x16_S16x64_S2048x64_1_0_0_1_n_n := ⟨rfl, rfl, rfl, rfl, rfl, rfl⟩
  have hr : Plain Cert.ReferenceIdeal.dot_S1048576x76_S76x64_S1048576x64_1_0_0_1_n_n := ⟨rfl, rfl, rfl, rfl, rfl, rfl⟩
  unfold Cert.ReferenceIdeal.Stages.affine76x64
  show (FloatOps.matmul (F := Ideal) dot_S2048x60_S60x64_S2048x64_1_0_0_1_n_n none _ _ (constant S2048x64 .f32 0x00000000#32) (ix2 p q)
        + FloatOps.matmul (F := Ideal) dot_S2048x16_S16x64_S2048x64_1_0_0_1_n_n none _ _ (constant S2048x64 .f32 0x00000000#32) (ix2 p q))
      + broadcastTo S2048x64 (shapeCast S1x64 B hsc) hbt (ix2 p q)
    = FloatOps.dotGeneral (F := Ideal) Cert.ReferenceIdeal.dot_S1048576x76_S76x64_S1048576x64_1_0_0_1_n_n none _ (Cert.ReferenceIdeal.Stages.joined obs y) W (ix2 (row t p) q)
      + broadcastInDim Cert.ReferenceIdeal.S1048576x64 (![0, 1] : Fin 2 → Fin 2) _ (broadcastInDim Cert.ReferenceIdeal.S1x64 (![1] : Fin 1 → Fin 2) _ eb) (ix2 (row t p) q)
  rw [hk60.matmul_zero_apply, hk16.matmul_zero_apply, hr.dotGeneral_apply, biasBlock_apply, biasRows_apply, hb q]
  refine congrArg (· + eb (ix1 q)) ?_
  have split : ∀ f : Fin 76 → EReal,
      ∑ k : Fin 76, f k = ∑ k : Fin 60, f ⟨k.val, by omega⟩ + ∑ k : Fin 16, f ⟨60 + k.val, by omega⟩ :=
    fun f => Fin.sum_univ_add (fun k : Fin (60 + 16) => f k)
  rw [split]
  refine congrArg₂ (· + ·) (Finset.sum_congr rfl fun k _ => ?_) (Finset.sum_congr rfl fun k _ => ?_)
  · show extractStridedSlice S2048x60 ![0, 4] X0 hs1 (ix2 p k) * extractStridedSlice S60x64 ![0, 0] W hs2 (ix2 k q)
      = Cert.ReferenceIdeal.Stages.joined obs y (ix2 (row t p) (⟨k.val, by omega⟩ : Fin 76)) * W (ix2 (⟨k.val, by omega⟩ : Fin 76) q)
    rw [Cert.ReferenceIdeal.InputRows.joined_kept, ← h0 p (⟨k.val + 4, by omega⟩ : Fin 64)]
    refine congrArg₂ (· * ·) ?_ ?_
    · refine extractStridedSlice_apply _ X0 hs1 (ix2 p k) (ix2 p (⟨k.val + 4, by omega⟩ : Fin 64)) fun a => ?_
      match a with
      | ⟨0, _⟩ => show p.val = 0 + p.val; omega
      | ⟨1, _⟩ => show k.val + 4 = 4 + k.val; omega
    · refine extractStridedSlice_apply _ W hs2 (ix2 k q) (ix2 (⟨k.val, by omega⟩ : Fin 76) q) fun a => ?_
      match a with
      | ⟨0, _⟩ => show k.val = 0 + k.val; omega
      | ⟨1, _⟩ => show q.val = 0 + q.val; omega
  · show X1 (ix2 p k) * extractStridedSlice S16x64 ![60, 0] W hs3 (ix2 k q)
      = Cert.ReferenceIdeal.Stages.joined obs y (ix2 (row t p) (⟨60 + k.val, by omega⟩ : Fin 76)) * W (ix2 (⟨60 + k.val, by omega⟩ : Fin 76) q)
    rw [Cert.ReferenceIdeal.InputRows.joined_label, ← h1 p k]
    refine congrArg (X1 (ix2 p k) * ·) ?_
    refine extractStridedSlice_apply _ W hs3 (ix2 k q) (ix2 (⟨60 + k.val, by omega⟩ : Fin 76) q) fun a => ?_
    match a with
    | ⟨0, _⟩ => show 60 + k.val = 60 + k.val; rfl
    | ⟨1, _⟩ => show q.val = 0 + q.val; omega

/-- THE EMBEDDING: three affine layers with tanh after the first two. -/
theorem embedded_rows {X0 : Vec Ideal S2048x64 .f32} {X1 : Vec Ideal S2048x16 .f32}
    {obs : Vec Ideal S1048576x64 .f32} {y : Vec Ideal S1048576x16 .f32}
    (h0 : RowsOf t X0 obs) (h1 : RowsOf t X1 y)
    (W3 : Vec Ideal S76x64 .f32) {B4 : Vec Ideal S1x64 .f32} {eb1 : Vec Ideal S64 .f32} (hB4 : ∀ q : Fin 64, B4 (ix2 (0 : Fin 1) q) = eb1 (ix1 q))
    (W5 : Vec Ideal S64x64 .f32) {B6 : Vec Ideal S1x64 .f32} {eb2 : Vec Ideal S64 .f32} (hB6 : ∀ q : Fin 64, B6 (ix2 (0 : Fin 1) q) = eb2 (ix1 q))
    (W7 : Vec Ideal S64x76 .f32) {B8 : Vec Ideal S1x76 .f32} {eb3 : Vec Ideal S76 .f32} (hB8 : ∀ q : Fin 76, B8 (ix2 (0 : Fin 1) q) = eb3 (ix1 q)) :
    RowsOf t (k0_pay4 X0 X1 W3 B4 W5 B6 W7 B8)
      (Cert.ReferenceIdeal.Stages.embedded (Cert.ReferenceIdeal.Stages.joined obs y) W3 eb1 W5 eb2 W7 eb3) := by
  refine RowsOf.affine (by exact ⟨rfl, rfl, rfl, rfl, rfl, rfl⟩) (by exact ⟨rfl, rfl, rfl, rfl, rfl, rfl⟩) ?_ W7 hB8 _ _ _ _ _
  refine RowsOf.tanh ?_
  refine RowsOf.affine (by exact ⟨rfl, rfl, rfl, rfl, rfl, rfl⟩) (by exact ⟨rfl, rfl, rfl, rfl, rfl, rfl⟩) ?_ W5 hB6 _ _ _ _ _
  refine RowsOf.tanh ?_
  exact firstLayer_rows h0 h1 W3 hB4 _ _ _ _ _ _

/-- THE ENCODER: four affine layers with the rectifier after the first three; the first weight matrix reaches the
    product already passed through the narrower format, which changes nothing. -/
theorem latent_rows {H : Vec Ideal S2048x76 .f32} {H' : Vec Ideal Cert.ReferenceIdeal.S1048576x76 .f32} (hH : RowsOf t H H')
    (W9 : Vec Ideal S76x64 .f32) {B10 : Vec Ideal S1x64 .f32} {cb1 : Vec Ideal S64 .f32} (hB10 : ∀ q : Fin 64, B10 (ix2 (0 : Fin 1) q) = cb1 (ix1 q))
    (W11 : Vec Ideal S64x64 .f32) {B12 : Vec Ideal S1x64 .f32} {cb2 : Vec Ideal S64 .f32} (hB12 : ∀ q : Fin 64, B12 (ix2 (0 : Fin 1) q) = cb2 (ix1 q))
    (W13 : Vec Ideal S64x32 .f32) {B14 : Vec Ideal S1x32 .f32} {cb3 : Vec Ideal S32 .f32} (hB14 : ∀ q : Fin 32, B14 (ix2 (0 : Fin 1) q) = cb3 (ix1 q))
    (W15 : Vec Ideal S32x16 .f32) {B16 : Vec Ideal S1x16 .f32} {cb4 : Vec Ideal S16 .f32} (hB16 : ∀ q : Fin 16, B16 (ix2 (0 : Fin 1) q) = cb4 (ix1 q)) :
    RowsOf t (k0_pay6 H (k0_pay5 W9) B10 W11 B12 W13 B14 W15 B16)
      (Cert.ReferenceIdeal.Stages.latent H' W9 cb1 W11 cb2 W13 cb3 W15 cb4) := by
  refine RowsOf.affine (by exact ⟨rfl, rfl, rfl, rfl, rfl, rfl⟩) (by exact ⟨rfl, rfl, rfl, rfl, rfl, rfl⟩) ?_ W15 hB16 _ _ _ _ _
  refine RowsOf.rectify ?_ _ _
  refine RowsOf.affine (by exact ⟨rfl, rfl, rfl, rfl, rfl, rfl⟩) (by exact ⟨rfl, rfl, rfl, rfl, rfl, rfl⟩) ?_ W13 hB14 _ _ _ _ _
  refine RowsOf.rectify ?_ _ _
  refine RowsOf.affine (by exact ⟨rfl, rfl, rfl, rfl, rfl, rfl⟩) (by exact ⟨rfl, rfl, rfl, rfl, rfl, rfl⟩) ?_ W11 hB12 _ _ _ _ _
  refine RowsOf.rectify ?_ _ _
  refine RowsOf.affine (by exact ⟨rfl, rfl, rfl, rfl, rfl, rfl⟩) (by exact ⟨rfl, rfl, rfl, rfl, rfl, rfl⟩) ?_ W9 hB10 _ _ _ _ _
  exact hH

/-- THE MEAN: tanh of the clipped mean head. -/
theorem mean_rows {Z : Vec Ideal S2048x16 .f32} {Z' : Vec Ideal S1048576x16 .f32} (hZ : RowsOf t Z Z')
    (W17 : Vec Ideal S16x16 .f32) {B18 : Vec Ideal S1x16 .f32} {mb : Vec Ideal S16 .f32} (hB18 : ∀ q : Fin 16, B18 (ix2 (0 : Fin 1) q) = mb (ix1 q)) :
    RowsOf t (k0_pay1 Z W17 B18) (Cert.ReferenceIdeal.Stages.mean Z' W17 mb) := by
  refine RowsOf.tanh ?_
  refine RowsOf.clip ?_ _ _ _
  refine RowsOf.affine (by exact ⟨rfl, rfl, rfl, rfl, rfl, rfl⟩) (by exact ⟨rfl, rfl, rfl, rfl, rfl, rfl⟩) ?_ W17 hB18 _ _ _ _ _
  exact hZ

/-- THE VARIANCE: exp of the clipped log-variance head. -/
theorem variance_rows {Z : Vec Ideal S2048x16 .f32} {Z' : Vec Ideal S1048576x16 .f32} (hZ : RowsOf t Z Z')
    (W19 : Vec Ideal S16x16 .f32) {B20 : Vec Ideal S1x16 .f32} {lb : Vec Ideal S16 .f32} (hB20 : ∀ q : Fin 16, B20 (ix2 (0 : Fin 1) q) = lb (ix1 q)) :
    RowsOf t (k0_pay2 Z W19 B20) (Cert.ReferenceIdeal.Stages.variance Z' W19 lb) := by
  refine RowsOf.exp ?_
  refine RowsOf.clip ?_ _ _ _
  refine RowsOf.affine (by exact ⟨rfl, rfl, rfl, rfl, rfl, rfl⟩) (by exact ⟨rfl, rfl, rfl, rfl, rfl, rfl⟩) ?_ W19 hB20 _ _ _ _ _
  exact hZ

/-- THE SAMPLE: mean + sqrt(variance) * noise. -/
theorem sample_rows {Z : Vec Ideal S2048x16 .f32} {Z' : Vec Ideal S1048576x16 .f32} (hZ : RowsOf t Z Z')
    (W17 : Vec Ideal S16x16 .f32) {B18 : Vec Ideal S1x16 .f32} {mb : Vec Ideal S16 .f32} (hB18 : ∀ q : Fin 16, B18 (ix2 (0 : Fin 1) q) = mb (ix1 q))
    (W19 : Vec Ideal S16x16 .f32) {B20 : Vec Ideal S1x16 .f32} {lb : Vec Ideal S16 .f32} (hB20 : ∀ q : Fin 16, B20 (ix2 (0 : Fin 1) q) = lb (ix1 q))
    {X2 : Vec Ideal S2048x16 .f32} {eps : Vec Ideal S1048576x16 .f32} (h2 : RowsOf t X2 eps) :
    RowsOf t (k0_pay3 Z W17 B18 W19 B20 X2)
      (Cert.ReferenceIdeal.Stages.sample (Cert.ReferenceIdeal.Stages.mean Z' W17 mb) (Cert.ReferenceIdeal.Stages.variance Z' W19 lb) eps) := by
  refine RowsOf.addf (mean_rows hZ W17 hB18) ?_
  refine RowsOf.mulf ?_ h2
  exact RowsOf.sqrt (variance_rows hZ W19 hB20)

/-! ## The three outputs at a grid point

The staged weight matrices are the argument matrices themselves (the equations `hW…`), the staged bias rows the
argument bias vectors as one row (`hB…`), the three streamed blocks block t of their arrays. -/

/-- The latent block is block t of the latent rows. -/
theorem latentOf_rows
    {X0 : Vec Ideal S2048x64 .f32} {X1 : Vec Ideal S2048x16 .f32}
    {obs : Vec Ideal S1048576x64 .f32} {y : Vec Ideal S1048576x16 .f32}
    (h0 : RowsOf t X0 obs) (h1 : RowsOf t X1 y)
    {W3 ew1 : Vec Ideal S76x64 .f32} (hW3 : W3 = ew1)
    {B4 : Vec Ideal S1x64 .f32} {eb1 : Vec Ideal S64 .f32} (hB4 : ∀ q : Fin 64, B4 (ix2 (0 : Fin 1) q) = eb1 (ix1 q))
    {W5 ew2 : Vec Ideal S64x64 .f32} (hW5 : W5 = ew2)
    {B6 : Vec Ideal S1x64 .f32} {eb2 : Vec Ideal S64 .f32} (hB6 : ∀ q : Fin 64, B6 (ix2 (0 : Fin 1) q) = eb2 (ix1 q))
    {W7 ew3 : Vec Ideal S64x76 .f32} (hW7 : W7 = ew3)
    {B8 : Vec Ideal S1x76 .f32} {eb3 : Vec Ideal S76 .f32} (hB8 : ∀ q : Fin 76, B8 (ix2 (0 : Fin 1) q) = eb3 (ix1 q))
    {W9 cw1 : Vec Ideal S76x64 .f32} (hW9 : W9 = cw1)
    {B10 : Vec Ideal S1x64 .f32} {cb1 : Vec Ideal S64 .f32} (hB10 : ∀ q : Fin 64, B10 (ix2 (0 : Fin 1) q) = cb1 (ix1 q))
    {W11 cw2 : Vec Ideal S64x64 .f32} (hW11 : W11 = cw2)
    {B12 : Vec Ideal S1x64 .f32} {cb2 : Vec Ideal S64 .f32} (hB12 : ∀ q : Fin 64, B12 (ix2 (0 : Fin 1) q) = cb2 (ix1 q))
    {W13 cw3 : Vec Ideal S64x32 .f32} (hW13 : W13 = cw3)
    {B14 : Vec Ideal S1x32 .f32} {cb3 : Vec Ideal S32 .f32} (hB14 : ∀ q : Fin 32, B14 (ix2 (0 : Fin 1) q) = cb3 (ix1 q))
    {W15 cw4 : Vec Ideal S32x16 .f32} (hW15 : W15 = cw4)
    {B16 : Vec Ideal S1x16 .f32} {cb4 : Vec Ideal S16 .f32} (hB16 : ∀ q : Fin 16, B16 (ix2 (0 : Fin 1) q) = cb4 (ix1 q)) :
    RowsOf t (k0_pay6 (k0_pay4 X0 X1 W3 B4 W5 B6 W7 B8) (k0_pay5 W9) B10 W11 B12 W13 B14 W15 B16)
      (Cert.ReferenceIdeal.Stages.latentOf obs y ew1 eb1 ew2 eb2 ew3 eb3 cw1 cb1 cw2 cb2 cw3 cb3 cw4 cb4) := by
  subst hW3 hW5 hW7 hW9 hW11 hW13 hW15
  exact latent_rows (embedded_rows h0 h1 _ hB4 _ hB6 _ hB8) _ hB10 _ hB12 _ hB14 _ hB16

/-- The mean block is block t of the mean output. -/
theorem meanOf_rows {Z : Vec Ideal S2048x16 .f32} {Z' : Vec Ideal S1048576x16 .f32} (hZ : RowsOf t Z Z')
    {W17 mw : Vec Ideal S16x16 .f32} (hW17 : W17 = mw)
    {B18 : Vec Ideal S1x16 .f32} {mb : Vec Ideal S16 .f32} (hB18 : ∀ q : Fin 16, B18 (ix2 (0 : Fin 1) q) = mb (ix1 q)) :
    RowsOf t (k0_pay1 Z W17 B18) (Cert.ReferenceIdeal.Stages.mean Z' mw mb) := by
  subst hW17
  exact mean_rows hZ _ hB18

/-- The variance block is block t of the variance output. -/
theorem varianceOf_rows {Z : Vec Ideal S2048x16 .f32} {Z' : Vec Ideal S1048576x16 .f32} (hZ : RowsOf t Z Z')
    {W19 lw : Vec Ideal S16x16 .f32} (hW19 : W19 = lw)
    {B20 : Vec Ideal S1x16 .f32} {lb : Vec Ideal S16 .f32} (hB20 : ∀ q : Fin 16, B20 (ix2 (0 : Fin 1) q) = lb (ix1 q)) :
    RowsOf t (k0_pay2 Z W19 B20) (Cert.ReferenceIdeal.Stages.variance Z' lw lb) := by
  subst hW19
  exact variance_rows hZ _ hB20

/-- The sample block is block t of the sample output. -/
theorem sampleOf_rows {Z : Vec Ideal S2048x16 .f32} {Z' : Vec Ideal S1048576x16 .f32} (hZ : RowsOf t Z Z')
    {W17 mw : Vec Ideal S16x16 .f32} (hW17 : W17 = mw)
    {B18 : Vec Ideal S1x16 .f32} {mb : Vec Ideal S16 .f32} (hB18 : ∀ q : Fin 16, B18 (ix2 (0 : Fin 1) q) = mb (ix1 q))
    {W19 lw : Vec Ideal S16x16 .f32} (hW19 : W19 = lw)
    {B20 : Vec Ideal S1x16 .f32} {lb : Vec Ideal S16 .f32} (hB20 : ∀ q : Fin 16, B20 (ix2 (0 : Fin 1) q) = lb (ix1 q))
    {X2 : Vec Ideal S2048x16 .f32} {eps : Vec Ideal S1048576x16 .f32} (h2 : RowsOf t X2 eps) :
    RowsOf t (k0_pay3 Z W17 B18 W19 B20 X2)
      (Cert.ReferenceIdeal.Stages.sample (Cert.ReferenceIdeal.Stages.mean Z' mw mb) (Cert.ReferenceIdeal.Stages.variance Z' lw lb) eps) := by
  subst hW17 hW19
  exact sample_rows hZ _ hB18 _ hB20 h2

end Cert.RowBridge

end
-- ==== Proof.GridIndex.lean ====
/-
  The kernel's index maps over its grid of 512 points.

  The three streamed inputs and the three outputs move one block of 2048 rows per point: at point t their block
  index is (t, 0).  Every weight matrix and bias row stays put: block index (0, 0) at every point.  Each fact is
  decided by evaluating the printed index map at the 512 points.
-/
import proofs.«131808_j3762391351958_1_alg».proof.Proof.Gen.KernelIdeal.Points

noncomputable section

namespace Cert.KernelIdeal.GridIndex

open Cert.KernelIdeal Cert.KernelIdeal.Gen Idealize.ShloMosaic

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx14 : ∀ t : Fin cfg0.N, win0_14.index t (0 : Fin 2) = 0 ∧ win0_14.index t (1 : Fin 2) = 0 := (by decide +kernel : ∀ t : Fin grid0.N, _)
theorem idx15 : ∀ t : Fin cfg0.N, win0_15.index t (0 : Fin 2) = 0 ∧ win0_15.index t (1 : Fin 2) = 0 := (by decide +kernel : ∀ t : Fin grid0.N, _)
theorem idx16 : ∀ t : Fin cfg0.N, win0_16.index t (0 : Fin 2) = 0 ∧ win0_16.index t (1 : Fin 2) = 0 := (by decide +kernel : ∀ t : Fin grid0.N, _)
theorem idx17 : ∀ t : Fin cfg0.N, win0_17.index t (0 : Fin 2) = 0 ∧ win0_17.index t (1 : Fin 2) = 0 := (by decide +kernel : ∀ t : Fin grid0.N, _)
theorem idx18 : ∀ t : Fin cfg0.N, win0_18.index t (0 : Fin 2) = 0 ∧ win0_18.index t (1 : Fin 2) = 0 := (by decide +kernel : ∀ t : Fin grid0.N, _)
theorem idx19 : ∀ t : Fin cfg0.N, win0_19.index t (0 : Fin 2) = 0 ∧ win0_19.index t (1 : Fin 2) = 0 := (by decide +kernel : ∀ t : Fin grid0.N, _)
theorem idx20 : ∀ t : Fin cfg0.N, win0_20.index t (0 : Fin 2) = 0 ∧ win0_20.index t (1 : Fin 2) = 0 := (by decide +kernel : ∀ t : Fin grid0.N, _)
theorem idx21 : ∀ t : Fin cfg0.N, win0_21.index t (0 : Fin 2) = t.val ∧ win0_21.index t (1 : Fin 2) = 0 := (by decide +kernel : ∀ t : Fin grid0.N, _)
theorem idx22 : ∀ t : Fin cfg0.N, win0_22.index t (0 : Fin 2) = t.val ∧ win0_22.index t (1 : Fin 2) = 0 := (by decide +kernel : ∀ t : Fin grid0.N, _)
theorem idx23 : ∀ t : Fin cfg0.N, win0_23.index t (0 : Fin 2) = t.val ∧ win0_23.index t (1 : Fin 2) = 0 := (by decide +kernel : ∀ t : Fin grid0.N, _)

end Cert.KernelIdeal.GridIndex

end
-- ==== Proof.BlockArrays.lean ====
/-
  From the kernel's blocks to its whole output arrays.

  The grid has 512 points.  At point t the three streamed inputs (observations, labels, noise) and the three
  outputs are staged as block t, rows 2048 * t to 2048 * t + 2047, of their arrays; every weight matrix and bias
  row is staged whole at every point, a bias row being the bias vector recast to one row by the host before the
  call.  So what point t writes back to an output is, by the row laws for the body, block t of the reference
  network's output on the whole argument arrays; the 512 blocks tile the 1048576 rows, so each output array ends
  holding that output everywhere.
-/
import proofs.«131808_j3762391351958_1_alg».proof.Proof.Gen.KernelIdeal.Value
import proofs.«131808_j3762391351958_1_alg».proof.Proof.RowBridge
import proofs.«131808_j3762391351958_1_alg».proof.Proof.GridIndex
import Idealize.ShloMosaic.Lib.StableHlo.Run
import Idealize.ShloMosaic.Lib.ValueLayout
import Idealize.ShloMosaic.Lib.Pipeline.Value

noncomputable section

namespace Cert.KernelIdeal.BlockArrays

open Cert.KernelIdeal Cert.KernelIdeal.Gen Cert.KernelIdeal.Value Idealize.ShloMosaic Idealize.ShloMosaic.TcCoe Idealize.SL.Sem
open Idealize.ShloMosaic.ValueIdx Cert.RowLaws Cert.KernelIdeal.GridIndex
open Idealize.ShloMosaic.Pipeline (Dat)

variable (m : (ℓ : Loc nD τ sig) → Buf (Elt Ideal) ℓ) (ρ : Dev nD → PrngReg)

/-! ## The staged blocks -/

/-- The observation block at point t. -/
abbrev obsBlock (c : Dev nD) (t : Fin cfg0.N) : Vec Ideal S2048x64 .f32 := iblk m c 0 t
/-- The label block at point t. -/
abbrev labelBlock (c : Dev nD) (t : Fin cfg0.N) : Vec Ideal S2048x16 .f32 := iblk m c 1 t
/-- The noise block at point t. -/
abbrev noiseBlock (c : Dev nD) (t : Fin cfg0.N) : Vec Ideal S2048x16 .f32 := iblk m c 2 t

/-- The observation block at point t is rows 2048 * t onward of the observations. -/
theorem obsBlock_rows (c : Dev nD) (t : Fin cfg0.N) : RowsOf t (obsBlock m c t) (m ((c : Thread nD τ).loc main_arg0)) := fun p q => by
  show V m c main_arg0 (((cfg0.win 0).blk t).view.emb (ix2 p q)) = m ((c : Thread nD τ).loc main_arg0) (ix2 (row t p) q)
  rw [V_main_arg0]
  refine congrArg _ (funext fun a => Fin.ext ?_)
  obtain ⟨e0, e1⟩ := idx0 t
  match a with
  | ⟨0, _⟩ => show win0_0.index t (0 : Fin 2) * 2048 + 1 * p.val = t.val * 2048 + p.val; rw [e0]; omega
  | ⟨1, _⟩ => show win0_0.index t (1 : Fin 2) * 64 + 1 * q.val = q.val; rw [e1]; omega

/-- The label block at point t is rows 2048 * t onward of the labels. -/
theorem labelBlock_rows (c : Dev nD) (t : Fin cfg0.N) : RowsOf t (labelBlock m c t) (m ((c : Thread nD τ).loc main_arg1)) := fun p q => by
  show V m c main_arg1 (((cfg0.win 1).blk t).view.emb (ix2 p q)) = m ((c : Thread nD τ).loc main_arg1) (ix2 (row t p) q)
  rw [V_main_arg1]
  refine congrArg _ (funext fun a => Fin.ext ?_)
  obtain ⟨e0, e1⟩ := idx1 t
  match a with
  | ⟨0, _⟩ => show win0_1.index t (0 : Fin 2) * 2048 + 1 * p.val = t.val * 2048 + p.val; rw [e0]; omega
  | ⟨1, _⟩ => show win0_1.index t (1 : Fin 2) * 16 + 1 * q.val = q.val; rw [e1]; omega

/-- The noise block at point t is rows 2048 * t onward of the noise. -/
theorem noiseBlock_rows (c : Dev nD) (t : Fin cfg0.N) : RowsOf t (noiseBlock m c t) (m ((c : Thread nD τ).loc main_arg2)) := fun p q => by
  show V m c main_arg2 (((cfg0.win 2).blk t).view.emb (ix2 p q)) = m ((c : Thread nD τ).loc main_arg2) (ix2 (row t p) q)
  rw [V_main_arg2]
  refine congrArg _ (funext fun a => Fin.ext ?_)
  obtain ⟨e0, e1⟩ := idx2 t
  match a with
  | ⟨0, _⟩ => show win0_2.index t (0 : Fin 2) * 2048 + 1 * p.val = t.val * 2048 + p.val; rw [e0]; omega
  | ⟨1, _⟩ => show win0_2.index t (1 : Fin 2) * 16 + 1 * q.val = q.val; rw [e1]; omega

/-! ### The resident weight matrices: the staged block is the whole argument matrix -/

theorem weights3 (c : Dev nD) (t : Fin cfg0.N) : (iblk m c 3 t : Vec Ideal S76x64 .f32) = m ((c : Thread nD τ).loc main_arg3) := by
  funext j
  show V m c main_arg3 (((cfg0.win 3).blk t).view.emb j) = m ((c : Thread nD τ).loc main_arg3) j
  rw [V_main_arg3]
  refine congrArg _ (funext fun a => Fin.ext ?_)
  obtain ⟨e0, e1⟩ := idx3 t
  match a with
  | ⟨0, _⟩ => show win0_3.index t (0 : Fin 2) * 76 + 1 * (j 0).val = (j 0).val; rw [e0]; omega
  | ⟨1, _⟩ => show win0_3.index t (1 : Fin 2) * 64 + 1 * (j 1).val = (j 1).val; rw [e1]; omega

theorem weights5 (c : Dev nD) (t : Fin cfg0.N) : (iblk m c 5 t : Vec Ideal S64x64 .f32) = m ((c : Thread nD τ).loc main_arg5) := by
  funext j
  show V m c main_arg5 (((cfg0.win 5).blk t).view.emb j) = m ((c : Thread nD τ).loc main_arg5) j
  rw [V_main_arg5]
  refine congrArg _ (funext fun a => Fin.ext ?_)
  obtain ⟨e0, e1⟩ := idx5 t
  match a with
  | ⟨0, _⟩ => show win0_5.index t (0 : Fin 2) * 64 + 1 * (j 0).val = (j 0).val; rw [e0]; omega
  | ⟨1, _⟩ => show win0_5.index t (1 : Fin 2) * 64 + 1 * (j 1).val = (j 1).val; rw [e1]; omega

theorem weights7 (c : Dev nD) (t : Fin cfg0.N) : (iblk m c 7 t : Vec Ideal S64x76 .f32) = m ((c : Thread nD τ).loc main_arg7) := by
  funext j
  show V m c main_arg7 (((cfg0.win 7).blk t).view.emb j) = m ((c : Thread nD τ).loc main_arg7) j
  rw [V_main_arg7]
  refine congrArg _ (funext fun a => Fin.ext ?_)
  obtain ⟨e0, e1⟩ := idx7 t
  match a with
  | ⟨0, _⟩ => show win0_7.index t (0 : Fin 2) * 64 + 1 * (j 0).val = (j 0).val; rw [e0]; omega
  | ⟨1, _⟩ => show win0_7.index t (1 : Fin 2) * 76 + 1 * (j 1).val = (j 1).val; rw [e1]; omega

theorem weights9 (c : Dev nD) (t : Fin cfg0.N) : (iblk m c 9 t : Vec Ideal S76x64 .f32) = m ((c : Thread nD τ).loc main_arg9) := by
  funext j
  show V m c main_arg9 (((cfg0.win 9).blk t).view.emb j) = m ((c : Thread nD τ).loc main_arg9) j
  rw [V_main_arg9]
  refine congrArg _ (funext fun a => Fin.ext ?_)
  obtain ⟨e0, e1⟩ := idx9 t
  match a with
  | ⟨0, _⟩ => show win0_9.index t (0 : Fin 2) * 76 + 1 * (j 0).val = (j 0).val; rw [e0]; omega
  | ⟨1, _⟩ => show win0_9.index t (1 : Fin 2) * 64 + 1 * (j 1).val = (j 1).val; rw [e1]; omega

theorem weights11 (c : Dev nD) (t : Fin cfg0.N) : (iblk m c 11 t : Vec Ideal S64x64 .f32) = m ((c : Thread nD τ).loc main_arg11) := by
  funext j
  show V m c main_arg11 (((cfg0.win 11).blk t).view.emb j) = m ((c : Thread nD τ).loc main_arg11) j
  rw [V_main_arg11]
  refine congrArg _ (funext fun a => Fin.ext ?_)
  obtain ⟨e0, e1⟩ := idx11 t
  match a with
  | ⟨0, _⟩ => show win0_11.index t (0 : Fin 2) * 64 + 1 * (j 0).val = (j 0).val; rw [e0]; omega
  | ⟨1, _⟩ => show win0_11.index t (1 : Fin 2) * 64 + 1 * (j 1).val = (j 1).val; rw [e1]; omega

theorem weights13 (c : Dev nD) (t : Fin cfg0.N) : (iblk m c 13 t : Vec Ideal S64x32 .f32) = m ((c : Thread nD τ).loc main_arg13) := by
  funext j
  show V m c main_arg13 (((cfg0.win 13).blk t).view.emb j) = m ((c : Thread nD τ).loc main_arg13) j
  rw [V_main_arg13]
  refine congrArg _ (funext fun a => Fin.ext ?_)
  obtain ⟨e0, e1⟩ := idx13 t
  match a with
  | ⟨0, _⟩ => show win0_13.index t (0 : Fin 2) * 64 + 1 * (j 0).val = (j 0).val; rw [e0]; omega
  | ⟨1, _⟩ => show win0_13.index t (1 : Fin 2) * 32 + 1 * (j 1).val = (j 1).val; rw [e1]; omega

theorem weights15 (c : Dev nD) (t : Fin cfg0.N) : (iblk m c 15 t : Vec Ideal S32x16 .f32) = m ((c : Thread nD τ).loc main_arg15) := by
  funext j
  show V m c main_arg15 (((cfg0.win 15).blk t).view.emb j) = m ((c : Thread nD τ).loc main_arg15) j
  rw [V_main_arg15]
  refine congrArg _ (funext fun a => Fin.ext ?_)
  obtain ⟨e0, e1⟩ := idx15 t
  match a with
  | ⟨0, _⟩ => show win0_15.index t (0 : Fin 2) * 32 + 1 * (j 0).val = (j 0).val; rw [e0]; omega
  | ⟨1, _⟩ => show win0_15.index t (1 : Fin 2) * 16 + 1 * (j 1).val = (j 1).val; rw [e1]; omega

theorem weights17 (c : Dev nD) (t : Fin cfg0.N) : (iblk m c 17 t : Vec Ideal S16x16 .f32) = m ((c : Thread nD τ).loc main_arg17) := by
  funext j
  show V m c main_arg17 (((cfg0.win 17).blk t).view.emb j) = m ((c : Thread nD τ).loc main_arg17) j
  rw [V_main_arg17]
  refine congrArg _ (funext fun a => Fin.ext ?_)
  obtain ⟨e0, e1⟩ := idx17 t
  match a with
  | ⟨0, _⟩ => show win0_17.index t (0 : Fin 2) * 16 + 1 * (j 0).val = (j 0).val; rw [e0]; omega
  | ⟨1, _⟩ => show win0_17.index t (1 : Fin 2) * 16 + 1 * (j 1).val = (j 1).val; rw [e1]; omega

theorem weights19 (c : Dev nD) (t : Fin cfg0.N) : (iblk m c 19 t : Vec Ideal S16x16 .f32) = m ((c : Thread nD τ).loc main_arg19) := by
  funext j
  show V m c main_arg19 (((cfg0.win 19).blk t).view.emb j) = m ((c : Thread nD τ).loc main_arg19) j
  rw [V_main_arg19]
  refine congrArg _ (funext fun a => Fin.ext ?_)
  obtain ⟨e0, e1⟩ := idx19 t
  match a with
  | ⟨0, _⟩ => show win0_19.index t (0 : Fin 2) * 16 + 1 * (j 0).val = (j 0).val; rw [e0]; omega
  | ⟨1, _⟩ => show win0_19.index t (1 : Fin 2) * 16 + 1 * (j 1).val = (j 1).val; rw [e1]; omega

/-! ### The resident bias rows: the staged row at (0, q) is the argument bias vector at q

The host recasts each bias vector to a one-row array before the call; the staged block is that whole array. -/

theorem bias4 (c : Dev nD) (t : Fin cfg0.N) (q : Fin 64) :
    (iblk m c 4 t : Vec Ideal S1x64 .f32) (ix2 (0 : Fin 1) q) = m ((c : Thread nD τ).loc main_arg4) (ix1 q) := by
  have e : (V m c main_v0 : S1x64.Idx → EReal) = shapeCast S1x64 (m ((c : Thread nD τ).loc main_arg4)) shapeCasts_S64_S1x64 := by
    dsimp only [Gen.V, Gen.hostOps0]; after_results; rfl
  have hi : ((cfg0.win 4).blk t).view.emb (ix2 (0 : Fin 1) q) = ix2 (0 : Fin 1) q := by
    funext a; refine Fin.ext ?_
    obtain ⟨e0, e1⟩ := idx4 t
    match a with
    | ⟨0, _⟩ => show win0_4.index t (0 : Fin 2) * 1 + 1 * 0 = 0; rw [e0]
    | ⟨1, _⟩ => show win0_4.index t (1 : Fin 2) * 64 + 1 * q.val = q.val; rw [e1]; omega
  show V m c main_v0 (((cfg0.win 4).blk t).view.emb (ix2 (0 : Fin 1) q)) = _
  rw [hi]
  exact (congrFun e _).trans (shapeCast_a_1a_apply _ _ 0 q)

theorem bias6 (c : Dev nD) (t : Fin cfg0.N) (q : Fin 64) :
    (iblk m c 6 t : Vec Ideal S1x64 .f32) (ix2 (0 : Fin 1) q) = m ((c : Thread nD τ).loc main_arg6) (ix1 q) := by
  have e : (V m c main_v1 : S1x64.Idx → EReal) = shapeCast S1x64 (m ((c : Thread nD τ).loc main_arg6)) shapeCasts_S64_S1x64 := by
    dsimp only [Gen.V, Gen.hostOps0]; after_results; rfl
  have hi : ((cfg0.win 6).blk t).view.emb (ix2 (0 : Fin 1) q) = ix2 (0 : Fin 1) q := by
    funext a; refine Fin.ext ?_
    obtain ⟨e0, e1⟩ := idx6 t
    match a with
    | ⟨0, _⟩ => show win0_6.index t (0 : Fin 2) * 1 + 1 * 0 = 0; rw [e0]
    | ⟨1, _⟩ => show win0_6.index t (1 : Fin 2) * 64 + 1 * q.val = q.val; rw [e1]; omega
  show V m c main_v1 (((cfg0.win 6).blk t).view.emb (ix2 (0 : Fin 1) q)) = _
  rw [hi]
  exact (congrFun e _).trans (shapeCast_a_1a_apply _ _ 0 q)

theorem bias8 (c : Dev nD) (t : Fin cfg0.N) (q : Fin 76) :
    (iblk m c 8 t : Vec Ideal S1x76 .f32) (ix2 (0 : Fin 1) q) = m ((c : Thread nD τ).loc main_arg8) (ix1 q) := by
  have e : (V m c main_v2 : S1x76.Idx → EReal) = shapeCast S1x76 (m ((c : Thread nD τ).loc main_arg8)) shapeCasts_S76_S1x76 := by
    dsimp only [Gen.V, Gen.hostOps0]; after_results; rfl
  have hi : ((cfg0.win 8).blk t).view.emb (ix2 (0 : Fin 1) q) = ix2 (0 : Fin 1) q := by
    funext a; refine Fin.ext ?_
    obtain ⟨e0, e1⟩ := idx8 t
    match a with
    | ⟨0, _⟩ => show win0_8.index t (0 : Fin 2) * 1 + 1 * 0 = 0; rw [e0]
    | ⟨1, _⟩ => show win0_8.index t (1 : Fin 2) * 76 + 1 * q.val = q.val; rw [e1]; omega
  show V m c main_v2 (((cfg0.win 8).blk t).view.emb (ix2 (0 : Fin 1) q)) = _
  rw [hi]
  exact (congrFun e _).trans (shapeCast_a_1a_apply _ _ 0 q)

theorem bias10 (c : Dev nD) (t : Fin cfg0.N) (q : Fin 64) :
    (iblk m c 10 t : Vec Ideal S1x64 .f32) (ix2 (0 : Fin 1) q) = m ((c : Thread nD τ).loc main_arg10) (ix1 q) := by
  have e : (V m c main_v3 : S1x64.Idx → EReal) = shapeCast S1x64 (m ((c : Thread nD τ).loc main_arg10)) shapeCasts_S64_S1x64 := by
    dsimp only [Gen.V, Gen.hostOps0]; after_results; rfl
  have hi : ((cfg0.win 10).blk t).view.emb (ix2 (0 : Fin 1) q) = ix2 (0 : Fin 1) q := by
    funext a; refine Fin.ext ?_
    obtain ⟨e0, e1⟩ := idx10 t
    match a with
    | ⟨0, _⟩ => show win0_10.index t (0 : Fin 2) * 1 + 1 * 0 = 0; rw [e0]
    | ⟨1, _⟩ => show win0_10.index t (1 : Fin 2) * 64 + 1 * q.val = q.val; rw [e1]; omega
  show V m c main_v3 (((cfg0.win 10).blk t).view.emb (ix2 (0 : Fin 1) q)) = _
  rw [hi]
  exact (congrFun e _).trans (shapeCast_a_1a_apply _ _ 0 q)

theorem bias12 (c : Dev nD) (t : Fin cfg0.N) (q : Fin 64) :
    (iblk m c 12 t : Vec Ideal S1x64 .f32) (ix2 (0 : Fin 1) q) = m ((c : Thread nD τ).loc main_arg12) (ix1 q) := by
  have e : (V m c main_v4 : S1x64.Idx → EReal) = shapeCast S1x64 (m ((c : Thread nD τ).loc main_arg12)) shapeCasts_S64_S1x64 := by
    dsimp only [Gen.V, Gen.hostOps0]; after_results; rfl
  have hi : ((cfg0.win 12).blk t).view.emb (ix2 (0 : Fin 1) q) = ix2 (0 : Fin 1) q := by
    funext a; refine Fin.ext ?_
    obtain ⟨e0, e1⟩ := idx12 t
    match a with
    | ⟨0, _⟩ => show win0_12.index t (0 : Fin 2) * 1 + 1 * 0 = 0; rw [e0]
    | ⟨1, _⟩ => show win0_12.index t (1 : Fin 2) * 64 + 1 * q.val = q.val; rw [e1]; omega
  show V m c main_v4 (((cfg0.win 12).blk t).view.emb (ix2 (0 : Fin 1) q)) = _
  rw [hi]
  exact (congrFun e _).trans (shapeCast_a_1a_apply _ _ 0 q)

theorem bias14 (c : Dev nD) (t : Fin cfg0.N) (q : Fin 32) :
    (iblk m c 14 t : Vec Ideal S1x32 .f32) (ix2 (0 : Fin 1) q) = m ((c : Thread nD τ).loc main_arg14) (ix1 q) := by
  have e : (V m c main_v5 : S1x32.Idx → EReal) = shapeCast S1x32 (m ((c : Thread nD τ).loc main_arg14)) shapeCasts_S32_S1x32 := by
    dsimp only [Gen.V, Gen.hostOps0]; after_results; rfl
  have hi : ((cfg0.win 14).blk t).view.emb (ix2 (0 : Fin 1) q) = ix2 (0 : Fin 1) q := by
    funext a; refine Fin.ext ?_
    obtain ⟨e0, e1⟩ := idx14 t
    match a with
    | ⟨0, _⟩ => show win0_14.index t (0 : Fin 2) * 1 + 1 * 0 = 0; rw [e0]
    | ⟨1, _⟩ => show win0_14.index t (1 : Fin 2) * 32 + 1 * q.val = q.val; rw [e1]; omega
  show V m c main_v5 (((cfg0.win 14).blk t).view.emb (ix2 (0 : Fin 1) q)) = _
  rw [hi]
  exact (congrFun e _).trans (shapeCast_a_1a_apply _ _ 0 q)

theorem bias16 (c : Dev nD) (t : Fin cfg0.N) (q : Fin 16) :
    (iblk m c 16 t : Vec Ideal S1x16 .f32) (ix2 (0 : Fin 1) q) = m ((c : Thread nD τ).loc main_arg16) (ix1 q) := by
  have e : (V m c main_v6 : S1x16.Idx → EReal) = shapeCast S1x16 (m ((c : Thread nD τ).loc main_arg16)) shapeCasts_S16_S1x16 := by
    dsimp only [Gen.V, Gen.hostOps0]; after_results; rfl
  have hi : ((cfg0.win 16).blk t).view.emb (ix2 (0 : Fin 1) q) = ix2 (0 : Fin 1) q := by
    funext a; refine Fin.ext ?_
    obtain ⟨e0, e1⟩ := idx16 t
    match a with
    | ⟨0, _⟩ => show win0_16.index t (0 : Fin 2) * 1 + 1 * 0 = 0; rw [e0]
    | ⟨1, _⟩ => show win0_16.index t (1 : Fin 2) * 16 + 1 * q.val = q.val; rw [e1]; omega
  show V m c main_v6 (((cfg0.win 16).blk t).view.emb (ix2 (0 : Fin 1) q)) = _
  rw [hi]
  exact (congrFun e _).trans (shapeCast_a_1a_apply _ _ 0 q)

theorem bias18 (c : Dev nD) (t : Fin cfg0.N) (q : Fin 16) :
    (iblk m c 18 t : Vec Ideal S1x16 .f32) (ix2 (0 : Fin 1) q) = m ((c : Thread nD τ).loc main_arg18) (ix1 q) := by
  have e : (V m c main_v7 : S1x16.Idx → EReal) = shapeCast S1x16 (m ((c : Thread nD τ).loc main_arg18)) shapeCasts_S16_S1x16 := by
    dsimp only [Gen.V, Gen.hostOps0]; after_results; rfl
  have hi : ((cfg0.win 18).blk t).view.emb (ix2 (0 : Fin 1) q) = ix2 (0 : Fin 1) q := by
    funext a; refine Fin.ext ?_
    obtain ⟨e0, e1⟩ := idx18 t
    match a with
    | ⟨0, _⟩ => show win0_18.index t (0 : Fin 2) * 1 + 1 * 0 = 0; rw [e0]
    | ⟨1, _⟩ => show win0_18.index t (1 : Fin 2) * 16 + 1 * q.val = q.val; rw [e1]; omega
  show V m c main_v7 (((cfg0.win 18).blk t).view.emb (ix2 (0 : Fin 1) q)) = _
  rw [hi]
  exact (congrFun e _).trans (shapeCast_a_1a_apply _ _ 0 q)

theorem bias20 (c : Dev nD) (t : Fin cfg0.N) (q : Fin 16) :
    (iblk m c 20 t : Vec Ideal S1x16 .f32) (ix2 (0 : Fin 1) q) = m ((c : Thread nD τ).loc main_arg20) (ix1 q) := by
  have e : (V m c main_v8 : S1x16.Idx → EReal) = shapeCast S1x16 (m ((c : Thread nD τ).loc main_arg20)) shapeCasts_S16_S1x16 := by
    dsimp only [Gen.V, Gen.hostOps0]; after_results; rfl
  have hi : ((cfg0.win 20).blk t).view.emb (ix2 (0 : Fin 1) q) = ix2 (0 : Fin 1) q := by
    funext a; refine Fin.ext ?_
    obtain ⟨e0, e1⟩ := idx20 t
    match a with
    | ⟨0, _⟩ => show win0_20.index t (0 : Fin 2) * 1 + 1 * 0 = 0; rw [e0]
    | ⟨1, _⟩ => show win0_20.index t (1 : Fin 2) * 16 + 1 * q.val = q.val; rw [e1]; omega
  show V m c main_v8 (((cfg0.win 20).blk t).view.emb (ix2 (0 : Fin 1) q)) = _
  rw [hi]
  exact (congrFun e _).trans (shapeCast_a_1a_apply _ _ 0 q)

/-! ## What each output array ends holding -/

/-- The reference network's sample output on the argument arrays. -/
abbrev sampleArray (c : Dev nD) : S1048576x16.Idx → EReal :=
  Cert.ReferenceIdeal.Stages.sampleOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg2))

/-- The reference network's mean output on the argument arrays. -/
abbrev meanArray (c : Dev nD) : S1048576x16.Idx → EReal :=
  Cert.ReferenceIdeal.Stages.meanOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The reference network's variance output on the argument arrays. -/
abbrev varianceArray (c : Dev nD) : S1048576x16.Idx → EReal :=
  Cert.ReferenceIdeal.Stages.varianceOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20))

theorem hz : (![0, 0] : Fin 2 → Nat) = fun _ => 0 := funext fun a => by fin_cases a <;> rfl

/-- The latent block the body computes at point t is block t of the latent rows. -/
theorem latent_point (c : Dev nD) (t : Fin cfg0.N) :
    RowsOf t (k0_pay6 (k0_pay4 (obsBlock m c t) (labelBlock m c t) (iblk m c 3 t) (iblk m c 4 t) (iblk m c 5 t) (iblk m c 6 t) (iblk m c 7 t) (iblk m c 8 t)) (k0_pay5 (iblk m c 9 t)) (iblk m c 10 t) (iblk m c 11 t) (iblk m c 12 t) (iblk m c 13 t) (iblk m c 14 t) (iblk m c 15 t) (iblk m c 16 t))
      (Cert.ReferenceIdeal.Stages.latentOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  Cert.RowBridge.latentOf_rows (obsBlock_rows m c t) (labelBlock_rows m c t) (weights3 m c t) (bias4 m c t) (weights5 m c t) (bias6 m c t)
    (weights7 m c t) (bias8 m c t) (weights9 m c t) (bias10 m c t) (weights11 m c t) (bias12 m c t) (weights13 m c t) (bias14 m c t)
    (weights15 m c t) (bias16 m c t)

/-- WHAT POINT t WRITES BACK to the sample output is block t of the sample array. -/
theorem flushed_sample (c : Dev nD) (t : Fin cfg0.N) :
    (dats m 0 c).flushed 21 t = ((cfg0.win 21).blk t).view.read (Elt Ideal) (sampleArray m c) := by
  rw [Value.flushed21]
  unfold out0_21
  rw [View.canon_unit_zero hz]
  simp only [View.ld_unit_zero (S := S2048x64) hz, View.ld_unit_zero (S := S2048x16) hz, View.ld_unit_zero (S := S76x64) hz, View.ld_unit_zero (S := S1x64) hz, View.ld_unit_zero (S := S64x64) hz, View.ld_unit_zero (S := S64x76) hz, View.ld_unit_zero (S := S1x76) hz, View.ld_unit_zero (S := S64x32) hz, View.ld_unit_zero (S := S1x32) hz, View.ld_unit_zero (S := S32x16) hz, View.ld_unit_zero (S := S1x16) hz, View.ld_unit_zero (S := S16x16) hz]
  funext j
  obtain ⟨p, q, rfl⟩ : ∃ (p : Fin 2048) (q : Fin 16), j = ix2 p q := ⟨j 0, j 1, eq_ix2 j⟩
  refine (Cert.RowBridge.sampleOf_rows (latent_point m c t) (weights17 m c t) (bias18 m c t) (weights19 m c t) (bias20 m c t)
    (noiseBlock_rows m c t) p q).trans ?_
  show sampleArray m c (ix2 (row t p) q) = sampleArray m c (((cfg0.win 21).blk t).view.emb (ix2 p q))
  refine congrArg _ (funext fun a => Fin.ext ?_)
  obtain ⟨e0, e1⟩ := idx21 t
  match a with
  | ⟨0, _⟩ => show t.val * 2048 + p.val = win0_21.index t (0 : Fin 2) * 2048 + 1 * p.val; rw [e0]; omega
  | ⟨1, _⟩ => show q.val = win0_21.index t (1 : Fin 2) * 16 + 1 * q.val; rw [e1]; omega

/-- WHAT POINT t WRITES BACK to the mean output is block t of the mean array. -/
theorem flushed_mean (c : Dev nD) (t : Fin cfg0.N) :
    (dats m 0 c).flushed 22 t = ((cfg0.win 22).blk t).view.read (Elt Ideal) (meanArray m c) := by
  rw [Value.flushed22]
  unfold out0_22
  rw [View.canon_unit_zero hz]
  simp only [View.ld_unit_zero (S := S2048x64) hz, View.ld_unit_zero (S := S2048x16) hz, View.ld_unit_zero (S := S76x64) hz, View.ld_unit_zero (S := S1x64) hz, View.ld_unit_zero (S := S64x64) hz, View.ld_unit_zero (S := S64x76) hz, View.ld_unit_zero (S := S1x76) hz, View.ld_unit_zero (S := S64x32) hz, View.ld_unit_zero (S := S1x32) hz, View.ld_unit_zero (S := S32x16) hz, View.ld_unit_zero (S := S1x16) hz, View.ld_unit_zero (S := S16x16) hz]
  funext j
  obtain ⟨p, q, rfl⟩ : ∃ (p : Fin 2048) (q : Fin 16), j = ix2 p q := ⟨j 0, j 1, eq_ix2 j⟩
  refine (Cert.RowBridge.meanOf_rows (latent_point m c t) (weights17 m c t) (bias18 m c t) p q).trans ?_
  show meanArray m c (ix2 (row t p) q) = meanArray m c (((cfg0.win 22).blk t).view.emb (ix2 p q))
  refine congrArg _ (funext fun a => Fin.ext ?_)
  obtain ⟨e0, e1⟩ := idx22 t
  match a with
  | ⟨0, _⟩ => show t.val * 2048 + p.val = win0_22.index t (0 : Fin 2) * 2048 + 1 * p.val; rw [e0]; omega
  | ⟨1, _⟩ => show q.val = win0_22.index t (1 : Fin 2) * 16 + 1 * q.val; rw [e1]; omega

/-- WHAT POINT t WRITES BACK to the variance output is block t of the variance array. -/
theorem flushed_variance (c : Dev nD) (t : Fin cfg0.N) :
    (dats m 0 c).flushed 23 t = ((cfg0.win 23).blk t).view.read (Elt Ideal) (varianceArray m c) := by
  rw [Value.flushed23]
  unfold out0_23
  rw [View.canon_unit_zero hz]
  simp only [View.ld_unit_zero (S := S2048x64) hz, View.ld_unit_zero (S := S2048x16) hz, View.ld_unit_zero (S := S76x64) hz, View.ld_unit_zero (S := S1x64) hz, View.ld_unit_zero (S := S64x64) hz, View.ld_unit_zero (S := S64x76) hz, View.ld_unit_zero (S := S1x76) hz, View.ld_unit_zero (S := S64x32) hz, View.ld_unit_zero (S := S1x32) hz, View.ld_unit_zero (S := S32x16) hz, View.ld_unit_zero (S := S1x16) hz, View.ld_unit_zero (S := S16x16) hz]
  funext j
  obtain ⟨p, q, rfl⟩ : ∃ (p : Fin 2048) (q : Fin 16), j = ix2 p q := ⟨j 0, j 1, eq_ix2 j⟩
  refine (Cert.RowBridge.varianceOf_rows (latent_point m c t) (weights19 m c t) (bias20 m c t) p q).trans ?_
  show varianceArray m c (ix2 (row t p) q) = varianceArray m c (((cfg0.win 23).blk t).view.emb (ix2 p q))
  refine congrArg _ (funext fun a => Fin.ext ?_)
  obtain ⟨e0, e1⟩ := idx23 t
  match a with
  | ⟨0, _⟩ => show t.val * 2048 + p.val = win0_23.index t (0 : Fin 2) * 2048 + 1 * p.val; rw [e0]; omega
  | ⟨1, _⟩ => show q.val = win0_23.index t (1 : Fin 2) * 16 + 1 * q.val; rw [e1]; omega

/-! ## The 512 blocks tile the rows -/

/-- The point whose block holds row r. -/
def pointOf (r : Fin 1048576) : Fin cfg0.N := ⟨r.val / 2048, by show r.val / 2048 < 512; have := r.isLt; omega⟩

/-- Every index of the sample output lies in the block of the point that holds its row. -/
theorem cover_sample (i : S1048576x16.Idx) :
    ∃ t : Fin cfg0.N, (cfg0.win 21).flush t = true ∧ i ∈ ((cfg0.win 21).blk t).view.set := by
  have hi0 : (i 0).val < 1048576 := (i 0).isLt
  have hi1 : (i 1).val < 16 := (i 1).isLt
  refine ⟨pointOf (i 0), flush0_21 _, ?_⟩
  show i ∈ ((View.whole main_v9_0).slice (win0_21.rect (pointOf (i 0)))).set
  rw [View.set_slice_whole, Rect.mem_set_unit]
  obtain ⟨e0, e1⟩ := idx21 (pointOf (i 0))
  have ep : (pointOf (i 0)).val = (i 0).val / 2048 := rfl
  intro a
  match a with
  | ⟨0, _⟩ =>
    show win0_21.index (pointOf (i 0)) (0 : Fin 2) * 2048 ≤ (i 0).val ∧ (i 0).val < win0_21.index (pointOf (i 0)) (0 : Fin 2) * 2048 + 2048
    rw [e0, ep]; omega
  | ⟨1, _⟩ =>
    show win0_21.index (pointOf (i 0)) (1 : Fin 2) * 16 ≤ (i 1).val ∧ (i 1).val < win0_21.index (pointOf (i 0)) (1 : Fin 2) * 16 + 16
    rw [e1]; omega

/-- Every index of the mean output lies in the block of the point that holds its row. -/
theorem cover_mean (i : S1048576x16.Idx) :
    ∃ t : Fin cfg0.N, (cfg0.win 22).flush t = true ∧ i ∈ ((cfg0.win 22).blk t).view.set := by
  have hi0 : (i 0).val < 1048576 := (i 0).isLt
  have hi1 : (i 1).val < 16 := (i 1).isLt
  refine ⟨pointOf (i 0), flush0_22 _, ?_⟩
  show i ∈ ((View.whole main_v9_1).slice (win0_22.rect (pointOf (i 0)))).set
  rw [View.set_slice_whole, Rect.mem_set_unit]
  obtain ⟨e0, e1⟩ := idx22 (pointOf (i 0))
  have ep : (pointOf (i 0)).val = (i 0).val / 2048 := rfl
  intro a
  match a with
  | ⟨0, _⟩ =>
    show win0_22.index (pointOf (i 0)) (0 : Fin 2) * 2048 ≤ (i 0).val ∧ (i 0).val < win0_22.index (pointOf (i 0)) (0 : Fin 2) * 2048 + 2048
    rw [e0, ep]; omega
  | ⟨1, _⟩ =>
    show win0_22.index (pointOf (i 0)) (1 : Fin 2) * 16 ≤ (i 1).val ∧ (i 1).val < win0_22.index (pointOf (i 0)) (1 : Fin 2) * 16 + 16
    rw [e1]; omega

/-- Every index of the variance output lies in the block of the point that holds its row. -/
theorem cover_variance (i : S1048576x16.Idx) :
    ∃ t : Fin cfg0.N, (cfg0.win 23).flush t = true ∧ i ∈ ((cfg0.win 23).blk t).view.set := by
  have hi0 : (i 0).val < 1048576 := (i 0).isLt
  have hi1 : (i 1).val < 16 := (i 1).isLt
  refine ⟨pointOf (i 0), flush0_23 _, ?_⟩
  show i ∈ ((View.whole main_v9_2).slice (win0_23.rect (pointOf (i 0)))).set
  rw [View.set_slice_whole, Rect.mem_set_unit]
  obtain ⟨e0, e1⟩ := idx23 (pointOf (i 0))
  have ep : (pointOf (i 0)).val = (i 0).val / 2048 := rfl
  intro a
  match a with
  | ⟨0, _⟩ =>
    show win0_23.index (pointOf (i 0)) (0 : Fin 2) * 2048 ≤ (i 0).val ∧ (i 0).val < win0_23.index (pointOf (i 0)) (0 : Fin 2) * 2048 + 2048
    rw [e0, ep]; omega
  | ⟨1, _⟩ =>
    show win0_23.index (pointOf (i 0)) (1 : Fin 2) * 16 ≤ (i 1).val ∧ (i 1).val < win0_23.index (pointOf (i 0)) (1 : Fin 2) * 16 + 16
    rw [e1]; omega

/-! ## The whole arrays, and the run -/

/-- After the run the sample output array is the reference network's sample output, everywhere. -/
theorem final_sample (c : Dev nD) : (dats m 0 c).arrAt 21 cfg0.N = sampleArray m c :=
  (dats m 0 c).arrAt_eq_of_cover 21 (sampleArray m c) (fun t _ => flushed_sample m c t) cover_sample

/-- After the run the mean output array is the reference network's mean output, everywhere. -/
theorem final_mean (c : Dev nD) : (dats m 0 c).arrAt 22 cfg0.N = meanArray m c :=
  (dats m 0 c).arrAt_eq_of_cover 22 (meanArray m c) (fun t _ => flushed_mean m c t) cover_mean

/-- After the run the variance output array is the reference network's variance output, everywhere. -/
theorem final_variance (c : Dev nD) : (dats m 0 c).arrAt 23 cfg0.N = varianceArray m c :=
  (dats m 0 c).arrAt_eq_of_cover 23 (varianceArray m c) (fun t _ => flushed_variance m c t) cover_variance

/-- Every weakly fair execution of the kernel's program terminates with the three outputs at the reference network's
    outputs on the argument arrays, and the arguments unchanged. -/
theorem run : θ_run defs (onTc (τ := τ) (main (F := Ideal))) ⟨m, fun _ => 0, ρ⟩ fun r => ∀ c : Dev nD,
      r.2.mem ((c : Thread nD τ).loc main_v9_0) = sampleArray m c
      ∧ r.2.mem ((c : Thread nD τ).loc main_v9_1) = meanArray m c
      ∧ r.2.mem ((c : Thread nD τ).loc main_v9_2) = varianceArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final_sample m c), (h c).2.1.trans (final_mean m c),
      (h c).2.2.1.trans (final_variance m c), (h c).2.2.2⟩)
    (Value.run_blocks m ρ)

end Cert.KernelIdeal.BlockArrays

end
-- ==== Proof.RefRun.lean ====
/-
  The reference program's run, read back.

  The reference is a host program: a straight line of 77 tensor operations once its five calls (the rectifier on 64
  columns twice, on 32 columns once, the clipping twice) are written out at their call sites over each call's own
  buffers.  Every weakly fair execution of it terminates, and then the three result buffers hold the sample, the
  mean and the variance of the stage definitions at the launch contents of the argument buffers, and every argument
  buffer holds what it held at the launch.
-/
import proofs.«131808_j3762391351958_1_alg».proof.Proof.RefStages
import Idealize.ShloMosaic.Lib.StableHlo.Run

noncomputable section

namespace Cert.ReferenceIdeal.HostRun

open Cert.ReferenceIdeal Cert.ReferenceIdeal.Stages Idealize.ShloMosaic Idealize.ShloMosaic.TcCoe Idealize.SL.Sem Idealize.ShloMosaic.StableHlo
open Facts₀ Facts

variable {F : FTy → Type} [FloatOps F]

/-- The program's 77 operations in order, each callee's operations written at its call over that call's buffers:
    the column table and the gather of the kept columns, the join with the labels; the embedding, three affine
    layers with tanh after the first two; the encoder, four affine layers with the rectifier after the first three;
    the mean head, clipped, then tanh; the variance head, clipped, then exp; the sample. -/
abbrev ops : List (HloOp τ sig (Elt F)) :=
  [ nullary main_c (fun i => lit0 (S60.rowMajor i)),
    nullary main_c_0 (constantI S60 1 0#1),
    nullary main_c_1 (constantI S_ 32 64#32),
    unary main_c_1 main_v0 (broadcastInDim S60 ![] bcast_S_S60 : (⟨S_, .i32⟩ : BufTy).Contents (Elt F) → (⟨S60, .i32⟩ : BufTy).Contents (Elt F)),
    binary main_c main_v0 main_v1 (addi : (⟨S60, .i32⟩ : BufTy).Contents (Elt F) → (⟨S60, .i32⟩ : BufTy).Contents (Elt F) → (⟨S60, .i32⟩ : BufTy).Contents (Elt F)),
    ternary main_c_0 main_v1 main_c main_v2 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    unary main_v2 main_v3 (broadcastInDim S60x1 ![0] bcast_S60_S60x1_0 : (⟨S60, .i32⟩ : BufTy).Contents (Elt F) → (⟨S60x1, .i32⟩ : BufTy).Contents (Elt F)),
    binary main_arg0 main_v3 main_v4 ((fun x i => Host.gather gather_S1048576x64_S60x1_S1048576x60_0_1_n_n_1_1_10485761 x i) : (⟨S1048576x64, .f32⟩ : BufTy).Contents (Elt F) → (⟨S60x1, .i32⟩ : BufTy).Contents (Elt F) → (⟨S1048576x60, .f32⟩ : BufTy).Contents (Elt F)),
    binary main_v4 main_arg1 main_v5 ((fun a b => concatenate S1048576x76 1 [⟨S1048576x60, a⟩, ⟨S1048576x16, b⟩] concatenates_S1048576x60_S1048576x16_S1048576x76_d1) : (⟨S1048576x60, .f32⟩ : BufTy).Contents (Elt F) → (⟨S1048576x16, .f32⟩ : BufTy).Contents (Elt F) → (⟨S1048576x76, .f32⟩ : BufTy).Contents (Elt F)),
    binary main_v5 main_arg3 main_v6 ((fun l r => Host.dotGeneral dot_S1048576x76_S76x64_S1048576x64_1_0_0_1_n_n none l r) : (⟨S1048576x76, .f32⟩ : BufTy).Contents (Elt F) → (⟨S76x64, .f32⟩ : BufTy).Contents (Elt F) → (⟨S1048576x64, .f32⟩ : BufTy).Contents (Elt F)),
    unary main_arg4 main_v7 (broadcastInDim S1x64 ![1] bcast_S64_S1x64_1 : (⟨S64, .f32⟩ : BufTy).Contents (Elt F) → (⟨S1x64, .f32⟩ : BufTy).Contents (Elt F)),
    unary main_v7 main_v8 (broadcastInDim S1048576x64 ![0, 1] bcast_S1x64_S1048576x64_0_1 : (⟨S1x64, .f32⟩ : BufTy).Contents (Elt F) → (⟨S1048576x64, .f32⟩ : BufTy).Contents (Elt F)),
    binary main_v6 main_v8 main_v9 (addf : (⟨S1048576x64, .f32⟩ : BufTy).Contents (Elt F) → (⟨S1048576x64, .f32⟩ : BufTy).Contents (Elt F) → (⟨S1048576x64, .f32⟩ : BufTy).Contents (Elt F)),
    unary main_v9 main_v10 (Host.tanh : (⟨S1048576x64, .f32⟩ : BufTy).Contents (Elt F) → (⟨S1048576x64, .f32⟩ : BufTy).Contents (Elt F)),
    binary main_v10 main_arg5 main_v11 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg6 main_v12 (broadcastInDim S1x64 ![1] bcast_S64_S1x64_1 : (⟨S64, .f32⟩ : BufTy).Contents (Elt F) → (⟨S1x64, .f32⟩ : BufTy).Contents (Elt F)),
    unary main_v12 main_v13 (broadcastInDim S1048576x64 ![0, 1] bcast_S1x64_S1048576x64_0_1 : (⟨S1x64, .f32⟩ : BufTy).Contents (Elt F) → (⟨S1048576x64, .f32⟩ : BufTy).Contents (Elt F)),
    binary main_v11 main_v13 main_v14 (addf : (⟨S1048576x64, .f32⟩ : BufTy).Contents (Elt F) → (⟨S1048576x64, .f32⟩ : BufTy).Contents (Elt F) → (⟨S1048576x64, .f32⟩ : BufTy).Contents (Elt F)),
    unary main_v14 main_v15 (Host.tanh : (⟨S1048576x64, .f32⟩ : BufTy).Contents (Elt F) → (⟨S1048576x64, .f32⟩ : BufTy).Contents (Elt F)),
    binary main_v15 main_arg7 main_v16 ((fun l r => Host.dotGeneral dot_S1048576x64_S64x76_S1048576x76_1_0_0_1_n_n none l r) : (⟨S1048576x64, .f32⟩ : BufTy).Contents (Elt F) → (⟨S64x76, .f32⟩ : BufTy).Contents (Elt F) → (⟨S1048576x76, .f32⟩ : BufTy).Contents (Elt F)),
    unary main_arg8 main_v17 (broadcastInDim S1x76 ![1] bcast_S76_S1x76_1 : (⟨S76, .f32⟩ : BufTy).Contents (Elt F) → (⟨S1x76, .f32⟩ : BufTy).Contents (Elt F)),
    unary main_v17 main_v18 (broadcastInDim S1048576x76 ![0, 1] bcast_S1x76_S1048576x76_0_1 : (⟨S1x76, .f32⟩ : BufTy).Contents (Elt F) → (⟨S1048576x76, .f32⟩ : BufTy).Contents (Elt F)),
    binary main_v16 main_v18 main_v19 (addf : (⟨S1048576x76, .f32⟩ : BufTy).Contents (Elt F) → (⟨S1048576x76, .f32⟩ : BufTy).Contents (Elt F) → (⟨S1048576x76, .f32⟩ : BufTy).Contents (Elt F)),
    binary main_v19 main_arg9 main_v20 ((fun l r => Host.dotGeneral dot_S1048576x76_S76x64_S1048576x64_1_0_0_1_n_n none l r) : (⟨S1048576x76, .f32⟩ : BufTy).Contents (Elt F) → (⟨S76x64, .f32⟩ : BufTy).Contents (Elt F) → (⟨S1048576x64, .f32⟩ : BufTy).Contents (Elt F)),
    unary main_arg10 main_v21 (broadcastInDim S1x64 ![1] bcast_S64_S1x64_1 : (⟨S64, .f32⟩ : BufTy).Contents (Elt F) → (⟨S1x64, .f32⟩ : BufTy).Contents (Elt F)),
    unary main_v21 main_v22 (broadcastInDim S1048576x64 ![0, 1] bcast_S1x64_S1048576x64_0_1 : (⟨S1x64, .f32⟩ : BufTy).Contents (Elt F) → (⟨S1048576x64, .f32⟩ : BufTy).Contents (Elt F)),
    binary main_v20 main_v22 main_v23 (addf : (⟨S1048576x64, .f32⟩ : BufTy).Contents (Elt F) → (⟨S1048576x64, .f32⟩ : BufTy).Contents (Elt F) → (⟨S1048576x64, .f32⟩ : BufTy).Contents (Elt F)),
    TRef.nullary main_call0.cst (constant S_ .f32 0x00000000#32),
    TRef.unary main_call0.cst main_call0.v0 (broadcastInDim S1048576x64 ![] bcast_S_S1048576x64),
    TRef.binary (.of main_v23) main_call0.v0 main_call0.v1 maximumf,
    binary main_v24 main_arg11 main_v25 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg12 main_v26 (broadcastInDim S1x64 ![1] bcast_S64_S1x64_1 : (⟨S64, .f32⟩ : BufTy).Contents (Elt F) → (⟨S1x64, .f32⟩ : BufTy).Contents (Elt F)),
    unary main_v26 main_v27 (broadcastInDim S1048576x64 ![0, 1] bcast_S1x64_S1048576x64_0_1 : (⟨S1x64, .f32⟩ : BufTy).Contents (Elt F) → (⟨S1048576x64, .f32⟩ : BufTy).Contents (Elt F)),
    binary main_v25 main_v27 main_v28 (addf : (⟨S1048576x64, .f32⟩ : BufTy).Contents (Elt F) → (⟨S1048576x64, .f32⟩ : BufTy).Contents (Elt F) → (⟨S1048576x64, .f32⟩ : BufTy).Contents (Elt F)),
    TRef.nullary main_call1.cst (constant S_ .f32 0x00000000#32),
    TRef.unary main_call1.cst main_call1.v0 (broadcastInDim S1048576x64 ![] bcast_S_S1048576x64),
    TRef.binary (.of main_v28) main_call1.v0 main_call1.v1 maximumf,
    binary main_v29 main_arg13 main_v30 ((fun l r => Host.dotGeneral dot_S1048576x64_S64x32_S1048576x32_1_0_0_1_n_n none l r) : (⟨S1048576x64, .f32⟩ : BufTy).Contents (Elt F) → (⟨S64x32, .f32⟩ : BufTy).Contents (Elt F) → (⟨S1048576x32, .f32⟩ : BufTy).Contents (Elt F)),
    unary main_arg14 main_v31 (broadcastInDim S1x32 ![1] bcast_S32_S1x32_1 : (⟨S32, .f32⟩ : BufTy).Contents (Elt F) → (⟨S1x32, .f32⟩ : BufTy).Contents (Elt F)),
    unary main_v31 main_v32 (broadcastInDim S1048576x32 ![0, 1] bcast_S1x32_S1048576x32_0_1 : (⟨S1x32, .f32⟩ : BufTy).Contents (Elt F) → (⟨S1048576x32, .f32⟩ : BufTy).Contents (Elt F)),
    binary main_v30 main_v32 main_v33 (addf : (⟨S1048576x32, .f32⟩ : BufTy).Contents (Elt F) → (⟨S1048576x32, .f32⟩ : BufTy).Contents (Elt F) → (⟨S1048576x32, .f32⟩ : BufTy).Contents (Elt F)),
    TRef.nullary main_call2.cst (constant S_ .f32 0x00000000#32),
    TRef.unary main_call2.cst main_call2.v0 (broadcastInDim S1048576x32 ![] bcast_S_S1048576x32),
    TRef.binary (.of main_v33) main_call2.v0 main_call2.v1 maximumf,
    binary main_v34 main_arg15 main_v35 ((fun l r => Host.dotGeneral dot_S1048576x32_S32x16_S1048576x16_1_0_0_1_n_n none l r) : (⟨S1048576x32, .f32⟩ : BufTy).Contents (Elt F) → (⟨S32x16, .f32⟩ : BufTy).Contents (Elt F) → (⟨S1048576x16, .f32⟩ : BufTy).Contents (Elt F)),
    unary main_arg16 main_v36 (broadcastInDim S1x16 ![1] bcast_S16_S1x16_1 : (⟨S16, .f32⟩ : BufTy).Contents (Elt F) → (⟨S1x16, .f32⟩ : BufTy).Contents (Elt F)),
    unary main_v36 main_v37 (broadcastInDim S1048576x16 ![0, 1] bcast_S1x16_S1048576x16_0_1 : (⟨S1x16, .f32⟩ : BufTy).Contents (Elt F) → (⟨S1048576x16, .f32⟩ : BufTy).Contents (Elt F)),
    binary main_v35 main_v37 main_v38 (addf : (⟨S1048576x16, .f32⟩ : BufTy).Contents (Elt F) → (⟨S1048576x16, .f32⟩ : BufTy).Contents (Elt F) → (⟨S1048576x16, .f32⟩ : BufTy).Contents (Elt F)),
    binary main_v38 main_arg17 main_v39 ((fun l r => Host.dotGeneral dot_S1048576x16_S16x16_S1048576x16_1_0_0_1_n_n none l r) : (⟨S1048576x16, .f32⟩ : BufTy).Contents (Elt F) → (⟨S16x16, .f32⟩ : BufTy).Contents (Elt F) → (⟨S1048576x16, .f32⟩ : BufTy).Contents (Elt F)),
    unary main_arg18 main_v40 (broadcastInDim S1x16 ![1] bcast_S16_S1x16_1 : (⟨S16, .f32⟩ : BufTy).Contents (Elt F) → (⟨S1x16, .f32⟩ : BufTy).Contents (Elt F)),
    unary main_v40 main_v41 (broadcastInDim S1048576x16 ![0, 1] bcast_S1x16_S1048576x16_0_1 : (⟨S1x16, .f32⟩ : BufTy).Contents (Elt F) → (⟨S1048576x16, .f32⟩ : BufTy).Contents (Elt F)),
    binary main_v39 main_v41 main_v42 (addf : (⟨S1048576x16, .f32⟩ : BufTy).Contents (Elt F) → (⟨S1048576x16, .f32⟩ : BufTy).Contents (Elt F) → (⟨S1048576x16, .f32⟩ : BufTy).Contents (Elt F)),
    nullary main_cst (constant S_ .f32 0xC0E7AE14#32),
    nullary main_cst_2 (constant S_ .f32 0x40E7AE14#32),
    TRef.unary (.of main_cst) main_call3.v0 id,
    TRef.unary main_call3.v0 main_call3.v1 (broadcastInDim S1048576x16 ![] bcast_S_S1048576x16),
    TRef.binary main_call3.v1 (.of main_v42) main_call3.v2 maximumf,
    TRef.unary (.of main_cst_2) main_call3.v3 id,
    TRef.unary main_call3.v3 main_call3.v4 (broadcastInDim S1048576x16 ![] bcast_S_S1048576x16),
    TRef.binary main_call3.v4 main_call3.v2 main_call3.v5 minimumf,
    unary main_v43 main_v44 (Host.tanh : (⟨S1048576x16, .f32⟩ : BufTy).Contents (Elt F) → (⟨S1048576x16, .f32⟩ : BufTy).Contents (Elt F)),
    binary main_v38 main_arg19 main_v45 ((fun l r => Host.dotGeneral dot_S1048576x16_S16x16_S1048576x16_1_0_0_1_n_n none l r) : (⟨S1048576x16, .f32⟩ : BufTy).Contents (Elt F) → (⟨S16x16, .f32⟩ : BufTy).Contents (Elt F) → (⟨S1048576x16, .f32⟩ : BufTy).Contents (Elt F)),
    unary main_arg20 main_v46 (broadcastInDim S1x16 ![1] bcast_S16_S1x16_1 : (⟨S16, .f32⟩ : BufTy).Contents (Elt F) → (⟨S1x16, .f32⟩ : BufTy).Contents (Elt F)),
    unary main_v46 main_v47 (broadcastInDim S1048576x16 ![0, 1] bcast_S1x16_S1048576x16_0_1 : (⟨S1x16, .f32⟩ : BufTy).Contents (Elt F) → (⟨S1048576x16, .f32⟩ : BufTy).Contents (Elt F)),
    binary main_v45 main_v47 main_v48 (addf : (⟨S1048576x16, .f32⟩ : BufTy).Contents (Elt F) → (⟨S1048576x16, .f32⟩ : BufTy).Contents (Elt F) → (⟨S1048576x16, .f32⟩ : BufTy).Contents (Elt F)),
    nullary main_cst_3 (constant S_ .f32 0xC0A00000#32),
    nullary main_cst_4 (constant S_ .f32 0x40000000#32),
    TRef.unary (.of main_cst_3) main_call4.v0 id,
    TRef.unary main_call4.v0 main_call4.v1 (broadcastInDim S1048576x16 ![] bcast_S_S1048576x16),
    TRef.binary main_call4.v1 (.of main_v48) main_call4.v2 maximumf,
    TRef.unary (.of main_cst_4) main_call4.v3 id,
    TRef.unary main_call4.v3 main_call4.v4 (broadcastInDim S1048576x16 ![] bcast_S_S1048576x16),
    TRef.binary main_call4.v4 main_call4.v2 main_call4.v5 minimumf,
    unary main_v49 main_v50 (Host.exp : (⟨S1048576x16, .f32⟩ : BufTy).Contents (Elt F) → (⟨S1048576x16, .f32⟩ : BufTy).Contents (Elt F)),
    unary main_v50 main_v51 (Host.sqrt : (⟨S1048576x16, .f32⟩ : BufTy).Contents (Elt F) → (⟨S1048576x16, .f32⟩ : BufTy).Contents (Elt F)),
    binary main_v51 main_arg2 main_v52 (mulf : (⟨S1048576x16, .f32⟩ : BufTy).Contents (Elt F) → (⟨S1048576x16, .f32⟩ : BufTy).Contents (Elt F) → (⟨S1048576x16, .f32⟩ : BufTy).Contents (Elt F)),
    binary main_v44 main_v52 main_v53 (addf : (⟨S1048576x16, .f32⟩ : BufTy).Contents (Elt F) → (⟨S1048576x16, .f32⟩ : BufTy).Contents (Elt F) → (⟨S1048576x16, .f32⟩ : BufTy).Contents (Elt F)) ]

set_option maxRecDepth 4096 in
set_option maxHeartbeats 4000000 in
/-- The program is that straight line: the two windows and the callees' bodies unfolded, sequencing reassociated,
    both sides are one chain of steps. -/
theorem main_eq (c : Dev nD) : main (F := F) c = seq ops := by
  simp only [main, main_part0, main_part1, fn_relu.body, fn_relu_0.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-! ## What the three result buffers and the argument buffers hold after the line

Over any contents `V` of the device's buffers at the start.  The fold is unrolled; each operation's result at a
buffer is its function's value when the buffer is the one it writes and what was there otherwise, which of the two
is decided on the literal references; the casts along a typed reference's type equation are the identity at a
literal reference.  What is left is the composed term, and the stage definitions unfold to it.  The gather and the
elementwise tanh, exp and sqrt are kept folded meanwhile: the equation never looks inside them. -/

attribute [local irreducible] Host.gather Host.tanh Host.exp Host.sqrt in
set_option maxRecDepth 8192 in
set_option maxHeartbeats 1000000 in
/-- The first result: the sample of the stage definitions at the argument buffers' contents. -/
theorem sample_eq (V : Valuation τ sig (Elt F)) :
    after ops V (main_v53 : DevRef τ sig)
      = sampleOf (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg2 : DevRef τ sig)) := by
  simp only [after_cons, after_nil]
  rfl

attribute [local irreducible] Host.gather Host.tanh Host.exp Host.sqrt in
set_option maxRecDepth 8192 in
set_option maxHeartbeats 1000000 in
/-- The second result: the mean. -/
theorem mean_eq (V : Valuation τ sig (Elt F)) :
    after ops V (main_v44 : DevRef τ sig)
      = meanOf (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  simp only [after_cons, after_nil]
  rfl

attribute [local irreducible] Host.gather Host.tanh Host.exp Host.sqrt in
set_option maxRecDepth 8192 in
set_option maxHeartbeats 1000000 in
/-- The third result: the variance. -/
theorem variance_eq (V : Valuation τ sig (Elt F)) :
    after ops V (main_v50 : DevRef τ sig)
      = varianceOf (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg19 : DevRef τ sig)) (V (main_arg20 : DevRef τ sig)) := by
  simp only [after_cons, after_nil]
  rfl

/-! No operation writes an argument buffer: each keeps its contents. -/

set_option maxRecDepth 8192 in
theorem arg0_eq (V : Valuation τ sig (Elt F)) : after ops V (main_arg0 : DevRef τ sig) = V (main_arg0 : DevRef τ sig) := by
  simp only [after_cons, after_nil]
  rfl

set_option maxRecDepth 8192 in
theorem arg1_eq (V : Valuation τ sig (Elt F)) : after ops V (main_arg1 : DevRef τ sig) = V (main_arg1 : DevRef τ sig) := by
  simp only [after_cons, after_nil]
  rfl

set_option maxRecDepth 8192 in
theorem arg2_eq (V : Valuation τ sig (Elt F)) : after ops V (main_arg2 : DevRef τ sig) = V (main_arg2 : DevRef τ sig) := by
  simp only [after_cons, after_nil]
  rfl

set_option maxRecDepth 8192 in
theorem arg3_eq (V : Valuation τ sig (Elt F)) : after ops V (main_arg3 : DevRef τ sig) = V (main_arg3 : DevRef τ sig) := by
  simp only [after_cons, after_nil]
  rfl

set_option maxRecDepth 8192 in
theorem arg4_eq (V : Valuation τ sig (Elt F)) : after ops V (main_arg4 : DevRef τ sig) = V (main_arg4 : DevRef τ sig) := by
  simp only [after_cons, after_nil]
  rfl

set_option maxRecDepth 8192 in
theorem arg5_eq (V : Valuation τ sig (Elt F)) : after ops V (main_arg5 : DevRef τ sig) = V (main_arg5 : DevRef τ sig) := by
  simp only [after_cons, after_nil]
  rfl

set_option maxRecDepth 8192 in
theorem arg6_eq (V : Valuation τ sig (Elt F)) : after ops V (main_arg6 : DevRef τ sig) = V (main_arg6 : DevRef τ sig) := by
  simp only [after_cons, after_nil]
  rfl

set_option maxRecDepth 8192 in
theorem arg7_eq (V : Valuation τ sig (Elt F)) : after ops V (main_arg7 : DevRef τ sig) = V (main_arg7 : DevRef τ sig) := by
  simp only [after_cons, after_nil]
  rfl

set_option maxRecDepth 8192 in
theorem arg8_eq (V : Valuation τ sig (Elt F)) : after ops V (main_arg8 : DevRef τ sig) = V (main_arg8 : DevRef τ sig) := by
  simp only [after_cons, after_nil]
  rfl

set_option maxRecDepth 8192 in
theorem arg9_eq (V : Valuation τ sig (Elt F)) : after ops V (main_arg9 : DevRef τ sig) = V (main_arg9 : DevRef τ sig) := by
  simp only [after_cons, after_nil]
  rfl

set_option maxRecDepth 8192 in
theorem arg10_eq (V : Valuation τ sig (Elt F)) : after ops V (main_arg10 : DevRef τ sig) = V (main_arg10 : DevRef τ sig) := by
  simp only [after_cons, after_nil]
  rfl

set_option maxRecDepth 8192 in
theorem arg11_eq (V : Valuation τ sig (Elt F)) : after ops V (main_arg11 : DevRef τ sig) = V (main_arg11 : DevRef τ sig) := by
  simp only [after_cons, after_nil]
  rfl

set_option maxRecDepth 8192 in
theorem arg12_eq (V : Valuation τ sig (Elt F)) : after ops V (main_arg12 : DevRef τ sig) = V (main_arg12 : DevRef τ sig) := by
  simp only [after_cons, after_nil]
  rfl

set_option maxRecDepth 8192 in
theorem arg13_eq (V : Valuation τ sig (Elt F)) : after ops V (main_arg13 : DevRef τ sig) = V (main_arg13 : DevRef τ sig) := by
  simp only [after_cons, after_nil]
  rfl

set_option maxRecDepth 8192 in
theorem arg14_eq (V : Valuation τ sig (Elt F)) : after ops V (main_arg14 : DevRef τ sig) = V (main_arg14 : DevRef τ sig) := by
  simp only [after_cons, after_nil]
  rfl

set_option maxRecDepth 8192 in
theorem arg15_eq (V : Valuation τ sig (Elt F)) : after ops V (main_arg15 : DevRef τ sig) = V (main_arg15 : DevRef τ sig) := by
  simp only [after_cons, after_nil]
  rfl

set_option maxRecDepth 8192 in
theorem arg16_eq (V : Valuation τ sig (Elt F)) : after ops V (main_arg16 : DevRef τ sig) = V (main_arg16 : DevRef τ sig) := by
  simp only [after_cons, after_nil]
  rfl

set_option maxRecDepth 8192 in
theorem arg17_eq (V : Valuation τ sig (Elt F)) : after ops V (main_arg17 : DevRef τ sig) = V (main_arg17 : DevRef τ sig) := by
  simp only [after_cons, after_nil]
  rfl

set_option maxRecDepth 8192 in
theorem arg18_eq (V : Valuation τ sig (Elt F)) : after ops V (main_arg18 : DevRef τ sig) = V (main_arg18 : DevRef τ sig) := by
  simp only [after_cons, after_nil]
  rfl

set_option maxRecDepth 8192 in
theorem arg19_eq (V : Valuation τ sig (Elt F)) : after ops V (main_arg19 : DevRef τ sig) = V (main_arg19 : DevRef τ sig) := by
  simp only [after_cons, after_nil]
  rfl

set_option maxRecDepth 8192 in
theorem arg20_eq (V : Valuation τ sig (Elt F)) : after ops V (main_arg20 : DevRef τ sig) = V (main_arg20 : DevRef τ sig) := by
  simp only [after_cons, after_nil]
  rfl

/-- On every device, for any float values, from any memory with zero counters: every weakly fair execution of the
    program terminates; the three result buffers then hold the sample, the mean and the variance of the stage
    definitions at the launch contents of the argument buffers, and every argument buffer holds its launch
    contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = sampleOf (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg2))
      ∧ r.2.mem ((c.tc : Thread nD τ).loc main_v44) = meanOf (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v50) = varianceOf (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v53).trans (sample_eq (launchContents m c)),
      (h c main_v44).trans (mean_eq (launchContents m c)),
      (h c main_v50).trans (variance_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c)),
      (h c main_arg20).trans (arg20_eq (launchContents m c))⟩)
    (run_seq scopedRefs_eq scopedSems_eq defs main (fun _ => ops) main_eq (fun _ => ops_sub) m ρ)

end Cert.ReferenceIdeal.HostRun

end
-- ==== Proof.lean ====
/-
  A row-wise network sampled from a diagonal Gaussian, computed by a pipelined kernel block by block against the
  plain array program.

  Each of the 1048576 input rows is the 60 observation columns 4 to 63 followed by 16 label columns.  The row goes
  through an embedding (76 -> 64 -> 64 -> 76, tanh after the first two layers) and an encoder (76 -> 64 -> 64 -> 32 -> 16,
  a rectifier after the first three) to a latent row z; the mean is tanh of an affine head of z clipped to
  [-7.24, 7.24], the variance exp of a second head clipped to [-5, 2], and the sample mean + sqrt(variance) * noise.
  The kernel runs the same steps on blocks of 2048 rows with the weights resident.  On the extended reals a change of
  float format is the identity, a product into a zero accumulator is the plain sum of products, and the clip bounds
  are the same words on both sides, so the two programs differ only in how the first layer's sum over 76 positions
  is arranged (60 + 16), which needs no more than associativity and commutativity of addition: the precondition is
  never opened.  Every step acts on each row by itself, so each block the kernel computes is the reference's array
  restricted to the block's rows, and the 512 blocks tile the rows.
-/
import proofs.«131808_j3762391351958_1_alg».proof.Defs
import proofs.«131808_j3762391351958_1_alg».proof.Proof.Gen.Kernel
import proofs.«131808_j3762391351958_1_alg».proof.Proof.Gen.Kernel.Skeleton
import proofs.«131808_j3762391351958_1_alg».proof.Proof.Gen.Kernel.Launch
import proofs.«131808_j3762391351958_1_alg».proof.Proof.Gen.Kernel.Points
import proofs.«131808_j3762391351958_1_alg».proof.Proof.Gen.Kernel.Frame
import proofs.«131808_j3762391351958_1_alg».proof.Proof.Gen.KernelIdeal
import proofs.«131808_j3762391351958_1_alg».proof.Proof.Gen.KernelIdeal.Skeleton
import proofs.«131808_j3762391351958_1_alg».proof.Proof.Gen.KernelIdeal.Launch
import proofs.«131808_j3762391351958_1_alg».proof.Proof.Gen.KernelIdeal.Points
import proofs.«131808_j3762391351958_1_alg».proof.Proof.Gen.KernelIdeal.Frame
import proofs.«131808_j3762391351958_1_alg».proof.Proof.Gen.KernelIdeal.Value
import proofs.«131808_j3762391351958_1_alg».proof.Proof.Gen.ReferenceIdeal
import proofs.«131808_j3762391351958_1_alg».proof.Proof.Gen.Pre_finite_inputs
import proofs.«131808_j3762391351958_1_alg».proof.Proof.BlockArrays
import proofs.«131808_j3762391351958_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs, faults nowhere, and leaves its arguments as they were. -/
theorem frame_kernel : Cert.frame_Kernel := fun m ρ _ => Cert.Kernel.Gen.frame m ρ

/-- The same for the kernel read on the extended reals. -/
theorem frame_kernelIdeal : Cert.frame_KernelIdeal := fun m ρ _ => Cert.KernelIdeal.Gen.frame m ρ

/-- The reference's run ends with its arguments unchanged: its run with the three results dropped. -/
theorem frame_reference : Cert.frame_ReferenceIdeal := fun m ρ _ =>
  (θ_run Cert.ReferenceIdeal.defs _ _).mono (fun _ h c => (h c).2.2.2) (Cert.ReferenceIdeal.HostRun.run (F := Ideal) m ρ)

/-- Nothing was rewritten between the kernel and its reading on the extended reals. -/
theorem preserves : Cert.preserves_Kernel_KernelIdeal := trivial

/-! ## Equal arguments, equal outputs -/

/-- The mean output at equal arguments. -/
theorem meanOf_congr
    {obs obs' : (⟨Cert.ReferenceIdeal.S1048576x64, .f32⟩ : BufTy).Contents (Elt Ideal)} (h_obs : obs = obs')
    {y y' : (⟨Cert.ReferenceIdeal.S1048576x16, .f32⟩ : BufTy).Contents (Elt Ideal)} (h_y : y = y')
    {ew1 ew1' : (⟨Cert.ReferenceIdeal.S76x64, .f32⟩ : BufTy).Contents (Elt Ideal)} (h_ew1 : ew1 = ew1')
    {eb1 eb1' : (⟨Cert.ReferenceIdeal.S64, .f32⟩ : BufTy).Contents (Elt Ideal)} (h_eb1 : eb1 = eb1')
    {ew2 ew2' : (⟨Cert.ReferenceIdeal.S64x64, .f32⟩ : BufTy).Contents (Elt Ideal)} (h_ew2 : ew2 = ew2')
    {eb2 eb2' : (⟨Cert.ReferenceIdeal.S64, .f32⟩ : BufTy).Contents (Elt Ideal)} (h_eb2 : eb2 = eb2')
    {ew3 ew3' : (⟨Cert.ReferenceIdeal.S64x76, .f32⟩ : BufTy).Contents (Elt Ideal)} (h_ew3 : ew3 = ew3')
    {eb3 eb3' : (⟨Cert.ReferenceIdeal.S76, .f32⟩ : BufTy).Contents (Elt Ideal)} (h_eb3 : eb3 = eb3')
    {cw1 cw1' : (⟨Cert.ReferenceIdeal.S76x64, .f32⟩ : BufTy).Contents (Elt Ideal)} (h_cw1 : cw1 = cw1')
    {cb1 cb1' : (⟨Cert.ReferenceIdeal.S64, .f32⟩ : BufTy).Contents (Elt Ideal)} (h_cb1 : cb1 = cb1')
    {cw2 cw2' : (⟨Cert.ReferenceIdeal.S64x64, .f32⟩ : BufTy).Contents (Elt Ideal)} (h_cw2 : cw2 = cw2')
    {cb2 cb2' : (⟨Cert.ReferenceIdeal.S64, .f32⟩ : BufTy).Contents (Elt Ideal)} (h_cb2 : cb2 = cb2')
    {cw3 cw3' : (⟨Cert.ReferenceIdeal.S64x32, .f32⟩ : BufTy).Contents (Elt Ideal)} (h_cw3 : cw3 = cw3')
    {cb3 cb3' : (⟨Cert.ReferenceIdeal.S32, .f32⟩ : BufTy).Contents (Elt Ideal)} (h_cb3 : cb3 = cb3')
    {cw4 cw4' : (⟨Cert.ReferenceIdeal.S32x16, .f32⟩ : BufTy).Contents (Elt Ideal)} (h_cw4 : cw4 = cw4')
    {cb4 cb4' : (⟨Cert.ReferenceIdeal.S16, .f32⟩ : BufTy).Contents (Elt Ideal)} (h_cb4 : cb4 = cb4')
    {mw mw' : (⟨Cert.ReferenceIdeal.S16x16, .f32⟩ : BufTy).Contents (Elt Ideal)} (h_mw : mw = mw')
    {mb mb' : (⟨Cert.ReferenceIdeal.S16, .f32⟩ : BufTy).Contents (Elt Ideal)} (h_mb : mb = mb') :
    Cert.ReferenceIdeal.Stages.meanOf obs y ew1 eb1 ew2 eb2 ew3 eb3 cw1 cb1 cw2 cb2 cw3 cb3 cw4 cb4 mw mb
      = Cert.ReferenceIdeal.Stages.meanOf obs' y' ew1' eb1' ew2' eb2' ew3' eb3' cw1' cb1' cw2' cb2' cw3' cb3' cw4' cb4' mw' mb' := by
  subst h_obs h_y h_ew1 h_eb1 h_ew2 h_eb2 h_ew3 h_eb3 h_cw1 h_cb1 h_cw2 h_cb2 h_cw3 h_cb3 h_cw4 h_cb4 h_mw h_mb
  rfl

/-- The variance output at equal arguments. -/
theorem varianceOf_congr
    {obs obs' : (⟨Cert.ReferenceIdeal.S1048576x64, .f32⟩ : BufTy).Contents (Elt Ideal)} (h_obs : obs = obs')
    {y y' : (⟨Cert.ReferenceIdeal.S1048576x16, .f32⟩ : BufTy).Contents (Elt Ideal)} (h_y : y = y')
    {ew1 ew1' : (⟨Cert.ReferenceIdeal.S76x64, .f32⟩ : BufTy).Contents (Elt Ideal)} (h_ew1 : ew1 = ew1')
    {eb1 eb1' : (⟨Cert.ReferenceIdeal.S64, .f32⟩ : BufTy).Contents (Elt Ideal)} (h_eb1 : eb1 = eb1')
    {ew2 ew2' : (⟨Cert.ReferenceIdeal.S64x64, .f32⟩ : BufTy).Contents (Elt Ideal)} (h_ew2 : ew2 = ew2')
    {eb2 eb2' : (⟨Cert.ReferenceIdeal.S64, .f32⟩ : BufTy).Contents (Elt Ideal)} (h_eb2 : eb2 = eb2')
    {ew3 ew3' : (⟨Cert.ReferenceIdeal.S64x76, .f32⟩ : BufTy).Contents (Elt Ideal)} (h_ew3 : ew3 = ew3')
    {eb3 eb3' : (⟨Cert.ReferenceIdeal.S76, .f32⟩ : BufTy).Contents (Elt Ideal)} (h_eb3 : eb3 = eb3')
    {cw1 cw1' : (⟨Cert.ReferenceIdeal.S76x64, .f32⟩ : BufTy).Contents (Elt Ideal)} (h_cw1 : cw1 = cw1')
    {cb1 cb1' : (⟨Cert.ReferenceIdeal.S64, .f32⟩ : BufTy).Contents (Elt Ideal)} (h_cb1 : cb1 = cb1')
    {cw2 cw2' : (⟨Cert.ReferenceIdeal.S64x64, .f32⟩ : BufTy).Contents (Elt Ideal)} (h_cw2 : cw2 = cw2')
    {cb2 cb2' : (⟨Cert.ReferenceIdeal.S64, .f32⟩ : BufTy).Contents (Elt Ideal)} (h_cb2 : cb2 = cb2')
    {cw3 cw3' : (⟨Cert.ReferenceIdeal.S64x32, .f32⟩ : BufTy).Contents (Elt Ideal)} (h_cw3 : cw3 = cw3')
    {cb3 cb3' : (⟨Cert.ReferenceIdeal.S32, .f32⟩ : BufTy).Contents (Elt Ideal)} (h_cb3 : cb3 = cb3')
    {cw4 cw4' : (⟨Cert.ReferenceIdeal.S32x16, .f32⟩ : BufTy).Contents (Elt Ideal)} (h_cw4 : cw4 = cw4')
    {cb4 cb4' : (⟨Cert.ReferenceIdeal.S16, .f32⟩ : BufTy).Contents (Elt Ideal)} (h_cb4 : cb4 = cb4')
    {lw lw' : (⟨Cert.ReferenceIdeal.S16x16, .f32⟩ : BufTy).Contents (Elt Ideal)} (h_lw : lw = lw')
    {lb lb' : (⟨Cert.ReferenceIdeal.S16, .f32⟩ : BufTy).Contents (Elt Ideal)} (h_lb : lb = lb') :
    Cert.ReferenceIdeal.Stages.varianceOf obs y ew1 eb1 ew2 eb2 ew3 eb3 cw1 cb1 cw2 cb2 cw3 cb3 cw4 cb4 lw lb
      = Cert.ReferenceIdeal.Stages.varianceOf obs' y' ew1' eb1' ew2' eb2' ew3' eb3' cw1' cb1' cw2' cb2' cw3' cb3' cw4' cb4' lw' lb' := by
  subst h_obs h_y h_ew1 h_eb1 h_ew2 h_eb2 h_ew3 h_eb3 h_cw1 h_cb1 h_cw2 h_cb2 h_cw3 h_cb3 h_cw4 h_cb4 h_lw h_lb
  rfl

/-- The sample output at equal arguments. -/
theorem sampleOf_congr
    {obs obs' : (⟨Cert.ReferenceIdeal.S1048576x64, .f32⟩ : BufTy).Contents (Elt Ideal)} (h_obs : obs = obs')
    {y y' : (⟨Cert.ReferenceIdeal.S1048576x16, .f32⟩ : BufTy).Contents (Elt Ideal)} (h_y : y = y')
    {ew1 ew1' : (⟨Cert.ReferenceIdeal.S76x64, .f32⟩ : BufTy).Contents (Elt Ideal)} (h_ew1 : ew1 = ew1')
    {eb1 eb1' : (⟨Cert.ReferenceIdeal.S64, .f32⟩ : BufTy).Contents (Elt Ideal)} (h_eb1 : eb1 = eb1')
    {ew2 ew2' : (⟨Cert.ReferenceIdeal.S64x64, .f32⟩ : BufTy).Contents (Elt Ideal)} (h_ew2 : ew2 = ew2')
    {eb2 eb2' : (⟨Cert.ReferenceIdeal.S64, .f32⟩ : BufTy).Contents (Elt Ideal)} (h_eb2 : eb2 = eb2')
    {ew3 ew3' : (⟨Cert.ReferenceIdeal.S64x76, .f32⟩ : BufTy).Contents (Elt Ideal)} (h_ew3 : ew3 = ew3')
    {eb3 eb3' : (⟨Cert.ReferenceIdeal.S76, .f32⟩ : BufTy).Contents (Elt Ideal)} (h_eb3 : eb3 = eb3')
    {cw1 cw1' : (⟨Cert.ReferenceIdeal.S76x64, .f32⟩ : BufTy).Contents (Elt Ideal)} (h_cw1 : cw1 = cw1')
    {cb1 cb1' : (⟨Cert.ReferenceIdeal.S64, .f32⟩ : BufTy).Contents (Elt Ideal)} (h_cb1 : cb1 = cb1')
    {cw2 cw2' : (⟨Cert.ReferenceIdeal.S64x64, .f32⟩ : BufTy).Contents (Elt Ideal)} (h_cw2 : cw2 = cw2')
    {cb2 cb2' : (⟨Cert.ReferenceIdeal.S64, .f32⟩ : BufTy).Contents (Elt Ideal)} (h_cb2 : cb2 = cb2')
    {cw3 cw3' : (⟨Cert.ReferenceIdeal.S64x32, .f32⟩ : BufTy).Contents (Elt Ideal)} (h_cw3 : cw3 = cw3')
    {cb3 cb3' : (⟨Cert.ReferenceIdeal.S32, .f32⟩ : BufTy).Contents (Elt Ideal)} (h_cb3 : cb3 = cb3')
    {cw4 cw4' : (⟨Cert.ReferenceIdeal.S32x16, .f32⟩ : BufTy).Contents (Elt Ideal)} (h_cw4 : cw4 = cw4')
    {cb4 cb4' : (⟨Cert.ReferenceIdeal.S16, .f32⟩ : BufTy).Contents (Elt Ideal)} (h_cb4 : cb4 = cb4')
    {mw mw' : (⟨Cert.ReferenceIdeal.S16x16, .f32⟩ : BufTy).Contents (Elt Ideal)} (h_mw : mw = mw')
    {mb mb' : (⟨Cert.ReferenceIdeal.S16, .f32⟩ : BufTy).Contents (Elt Ideal)} (h_mb : mb = mb')
    {lw lw' : (⟨Cert.ReferenceIdeal.S16x16, .f32⟩ : BufTy).Contents (Elt Ideal)} (h_lw : lw = lw')
    {lb lb' : (⟨Cert.ReferenceIdeal.S16, .f32⟩ : BufTy).Contents (Elt Ideal)} (h_lb : lb = lb')
    {eps eps' : (⟨Cert.ReferenceIdeal.S1048576x16, .f32⟩ : BufTy).Contents (Elt Ideal)} (h_eps : eps = eps') :
    Cert.ReferenceIdeal.Stages.sampleOf obs y ew1 eb1 ew2 eb2 ew3 eb3 cw1 cb1 cw2 cb2 cw3 cb3 cw4 cb4 mw mb lw lb eps
      = Cert.ReferenceIdeal.Stages.sampleOf obs' y' ew1' eb1' ew2' eb2' ew3' eb3' cw1' cb1' cw2' cb2' cw3' cb3' cw4' cb4' mw' mb' lw' lb' eps' := by
  subst h_obs h_y h_ew1 h_eb1 h_ew2 h_eb2 h_ew3 h_eb3 h_cw1 h_cb1 h_cw2 h_cb2 h_cw3 h_cb3 h_cw4 h_cb4 h_mw h_mb h_lw h_lb h_eps
  rfl

/-- From memories that agree on the arguments both programs end with the sample, mean and variance arrays of the
    network on those arguments: the kernel's run gives them block by block, the reference's by unfolding. -/
theorem algebraic : Cert.algebraic_KernelIdeal_ReferenceIdeal := by
  intro m ρ m' ρ' _ hagree
  refine ⟨fun c => Cert.KernelIdeal.BlockArrays.sampleArray m c, fun c => Cert.KernelIdeal.BlockArrays.meanArray m c,
    fun c => Cert.KernelIdeal.BlockArrays.varianceArray m c, Cert.KernelIdeal.BlockArrays.run m ρ, ?_⟩
  refine (θ_run Cert.ReferenceIdeal.defs _ _).mono (fun r h c => ?_) (Cert.ReferenceIdeal.HostRun.run (F := Ideal) m' ρ')
  obtain ⟨a0, a1, a2, a3, a4, a5, a6, a7, a8, a9, a10, a11, a12, a13, a14, a15, a16, a17, a18, a19, a20⟩ := hagree c
  obtain ⟨r0, r1, r2, rk⟩ := h c
  exact ⟨r0.trans (sampleOf_congr a0 a1 a3 a4 a5 a6 a7 a8 a9 a10 a11 a12 a13 a14 a15 a16 a17 a18 a19 a20 a2),
    r1.trans (meanOf_congr a0 a1 a3 a4 a5 a6 a7 a8 a9 a10 a11 a12 a13 a14 a15 a16 a17 a18),
    r2.trans (varianceOf_congr a0 a1 a3 a4 a5 a6 a7 a8 a9 a10 a11 a12 a13 a14 a15 a16 a19 a20), rk⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
